-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v26_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v26_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x512 : Shape := ⟨2, ![1, 512]⟩
abbrev S2000x128 : Shape := ⟨2, ![2000, 128]⟩
abbrev S2000x512 : Shape := ⟨2, ![2000, 512]⟩
abbrev S1x128 : Shape := ⟨2, ![1, 128]⟩
abbrev S_ : Shape := ⟨0, ![]⟩
abbrev S800000x1 : Shape := ⟨2, ![800000, 1]⟩
abbrev S800000x256 : Shape := ⟨2, ![800000, 256]⟩
abbrev S2000x256 : Shape := ⟨2, ![2000, 256]⟩
abbrev S50000x256 : Shape := ⟨2, ![50000, 256]⟩

abbrev nBuf : Space → Nat
  | .hbm => 58
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x512, .f32⟩
  | .hbm, ⟨15, _⟩ => ⟨S512, .f32⟩
  | .hbm, ⟨16, _⟩ => ⟨S1x512, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S1x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x128, .f32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S50000x128, .f32⟩
  | .hbm, ⟨56, _⟩ => ⟨S50000x128, .f32⟩
  | .hbm, ⟨57, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x256, .f32⟩
  | .local _ .vmem, ⟨25, _⟩ => ⟨S2000x256, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev main_cst : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  shapeCasts_S128_S1x128 : S128.ShapeCasts S1x128
  bcast_S_S800000 : S_.BroadcastsInDim S800000 (![] : Fin 0 → Fin S800000.rank)
  bcast_S800000_S800000x1_0 : S800000.BroadcastsInDim S800000x1 (![0] : Fin 1 → Fin S800000x1.rank)
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  dot_S2000x128_S128x512_S2000x512_1_0_0_1_n_n_wf : DotDims.WF S2000x128 S128x512 S2000x512 [1] [0] [0] [1] [] []
  gather_S50000x128_S800000x1_S800000x128_1_0_n_n_0_1_1128_wf : GatherDims.WF S50000x128 S800000x1 S800000x128 [1] [0] [] [0] [] 1 ![1, 128]
  dot_S2000x128_S128x128_S2000x128_1_0_0_1_n_n_wf : DotDims.WF S2000x128 S128x128 S2000x128 [1] [0] [0] [1] [] []
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S800000x128.size a
  hwx1_0 : ∀ i : grid1.Coords, EltTy.bits .f32 = 32 ∨ (Rect.block (s := S800000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S800000x128.size a
  hwx1_1 : ∀ i : grid1.Coords, EltTy.bits .f32 = 32 ∨ (Rect.block (s := S800000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S800000x128.size a
  hwx1_2 : ∀ i : grid1.Coords, EltTy.bits .f32 = 32 ∨ (Rect.block (s := S800000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S800000x128.size a
  hwx1_3 : ∀ i : grid1.Coords, EltTy.bits .f32 = 32 ∨ (Rect.block (s := S800000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S800000x128.size a
  hwx1_6 : ∀ i : grid1.Coords, EltTy.bits .f32 = 32 ∨ (Rect.block (s := S800000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S800000x256.size a
  hwx1_7 : ∀ i : grid1.Coords, EltTy.bits .f32 = 32 ∨ (Rect.block (s := S800000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_3) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26_1) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S800000x1 : Shape := ⟨2, ![800000, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S800000x128, .f32⟩
  | .hbm, ⟨61, _⟩ => ⟨S800000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S800000x128, .f32⟩
  | .hbm, ⟨91, _⟩ => ⟨S800000x128, .f32⟩
  | .hbm, ⟨92, _⟩ => ⟨S800000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_c_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call0_cst : Ref sig .tc := ⟨.hbm, 85, rfl⟩
abbrev main_call0_v0 : Ref sig .tc := ⟨.hbm, 86, rfl⟩
abbrev main_v60 : Ref sig .tc := ⟨.hbm, 87, rfl⟩
abbrev main_v61 : Ref sig .tc := ⟨.hbm, 88, rfl⟩
abbrev main_call1_cst : Ref sig .tc := ⟨.hbm, 89, rfl⟩
abbrev main_call1_v0 : Ref sig .tc := ⟨.hbm, 90, rfl⟩
abbrev main_v62 : Ref sig .tc := ⟨.hbm, 91, rfl⟩
abbrev main_v63 : Ref sig .tc := ⟨.hbm, 92, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRegion0.lean ====
import proofs.«411699_j69269232550020_3_alg».proof.Proof.Gen.Kernel.Launch
import proofs.«411699_j69269232550020_3_alg».proof.Proof.Gen.Kernel.Skeleton
import proofs.«411699_j69269232550020_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node-projection call (pipeline 0) at the contents `V` it is entered from

Window 0 is the node features (rows `2000 t .. 2000 t + 1999` at point `t`), windows 1 and 2 the four weight matrices laid
side by side and their biases laid end to end (whole, never re-fetched), windows 3..6 the four projections (the same
rows as window 0). -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the pipeline fetched it there or not
    (a window whose block index never moves is fetched once and keeps its block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body touches: each a whole staging buffer. -/
abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0

/-- Projection 0's buffer after the body: the body's one store into it, columns `0 .. 127` of the block's product
    with the side-by-side weights plus the biases. -/
def out0_3 (x0 : Vec F S2000x128 .f32) (x1 : Vec F S128x512 .f32) (x2 : Vec F S1x512 .f32) : Vec F S2000x128 .f32 :=
  View.canon [⟨r0_0, k0_pay2 (View.ld x0 r0_0) (View.ld x1 r0_1) (View.ld x2 r0_2)⟩]
theorem cover0_3 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y
/-- Projection 1's buffer after the body: the body's one store into it, columns `128 .. 255` of the block's product
    with the side-by-side weights plus the biases. -/
def out0_4 (x0 : Vec F S2000x128 .f32) (x1 : Vec F S128x512 .f32) (x2 : Vec F S1x512 .f32) : Vec F S2000x128 .f32 :=
  View.canon [⟨r0_0, k0_pay3 (View.ld x0 r0_0) (View.ld x1 r0_1) (View.ld x2 r0_2)⟩]
theorem cover0_4 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y
/-- Projection 2's buffer after the body: the body's one store into it, columns `256 .. 383` of the block's product
    with the side-by-side weights plus the biases. -/
def out0_5 (x0 : Vec F S2000x128 .f32) (x1 : Vec F S128x512 .f32) (x2 : Vec F S1x512 .f32) : Vec F S2000x128 .f32 :=
  View.canon [⟨r0_0, k0_pay4 (View.ld x0 r0_0) (View.ld x1 r0_1) (View.ld x2 r0_2)⟩]
theorem cover0_5 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y
/-- Projection 3's buffer after the body: the body's one store into it, columns `384 .. 511` of the block's product
    with the side-by-side weights plus the biases. -/
def out0_6 (x0 : Vec F S2000x128 .f32) (x1 : Vec F S128x512 .f32) (x2 : Vec F S1x512 .f32) : Vec F S2000x128 .f32 :=
  View.canon [⟨r0_0, k0_pay5 (View.ld x0 r0_0) (View.ld x1 r0_1) (View.ld x2 r0_2)⟩]
theorem cover0_6 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

set_option maxHeartbeats 4000000 in
/-- The body on whole staging buffers: the inputs held at `x0 ..`, the results' buffers at anything; it ends with the
    inputs as they were and each result's buffer at its `out0_w` of them. -/
theorem sound_kernel0 (c : Dev nD) (E : Set ℕ) (i : grid0.Coords) (arg1 : Memref sig .tc .vmem S2000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E (cc0__node_proj_kernel i arg1 harg1 arg2 harg2 arg3 harg3 arg4 harg4 arg5 harg5 arg6 harg6 arg7 harg7) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The proof data of the call on core `c`: the arrays as found; after the body each input's buffer still at its block,
    each result's at its `out0_w` of the input blocks; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
import proofs.«411699_j69269232550020_3_alg».proof.Proof.Gen.Kernel.Launch
import proofs.«411699_j69269232550020_3_alg».proof.Proof.Gen.Kernel.Skeleton
import proofs.«411699_j69269232550020_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The edge-gate call (pipeline 1) at the contents `V` it is entered from

Windows 0..3 are the edge features and the three gathered node projections (rows `2000 t .. 2000 t + 1999` at point `t`),
windows 4 and 5 the edge weight matrix and its bias (whole, never re-fetched), window 6 the new edge features and window 7
the 256-wide pair (gate times gathered projection | gate), the same rows. -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the pipeline fetched it there or not
    (a window whose block index never moves is fetched once and keeps its block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: whole staging buffers, and the left and right halves of the 256-wide one. -/
abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S2000x256 := Rect.unit (s := S2000x256) ![0, 0] S2000x128.size inb_S2000x256_S2000x128_0_0
abbrev r1_4 : Rect S2000x256 := Rect.unit (s := S2000x256) ![0, 128] S2000x128.size inb_S2000x256_S2000x128_0_128

/-- The new edge features' buffer after the body: its one store, the edge block plus the positive part of the gate's argument. -/
def out1_6 (x0 x1 x2 x3 : Vec F S2000x128 .f32) (x4 : Vec F S128x128 .f32) (x5 : Vec F S1x128 .f32) : Vec F S2000x128 .f32 :=
  View.canon [⟨r1_0, k1_pay4 (View.ld x0 r1_0) (View.ld x4 r1_1) (View.ld x5 r1_2) (View.ld x1 r1_0) (View.ld x2 r1_0)⟩]
theorem cover1_6 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y
/-- The 256-wide buffer after the body: its two stores, the later first — the gate into the right half, the gate times
    the gathered projection into the left half. -/
def out1_7 (x0 x1 x2 x3 : Vec F S2000x128 .f32) (x4 : Vec F S128x128 .f32) (x5 : Vec F S1x128 .f32) : Vec F S2000x256 .f32 :=
  View.canon [⟨r1_4, k1_pay2 (View.ld x0 r1_0) (View.ld x4 r1_1) (View.ld x5 r1_2) (View.ld x1 r1_0) (View.ld x2 r1_0)⟩,
    ⟨r1_3, k1_pay3 (View.ld x0 r1_0) (View.ld x4 r1_1) (View.ld x5 r1_2) (View.ld x1 r1_0) (View.ld x2 r1_0) (View.ld x3 r1_0)⟩]
/-- The two halves tile the 256-wide buffer. -/
theorem cover1_7 (p0 p1 : Vec F S2000x128 .f32) (y : S2000x256.Idx) :
    ∃ pc ∈ ([⟨r1_4, p0⟩, ⟨r1_3, p1⟩] : List (View.Piece (Elt F) S2000x256 .f32)), y ∈ pc.1.set :=
  View.cover_of_tiled [⟨r1_4, p0⟩, ⟨r1_3, p1⟩] S2000x128.size (by rfl) y

set_option maxHeartbeats 4000000 in
/-- The body on whole staging buffers: the inputs held at `x0 ..`, the results' buffers at anything; it ends with the
    inputs as they were and each result's buffer at its `out1_w` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole)
    (x0 : Vec F S2000x128 .f32) (x1 : Vec F S2000x128 .f32) (x2 : Vec F S2000x128 .f32) (x3 : Vec F S2000x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__edge_gate_kernel i arg1 harg1 arg2 harg2 arg3 harg3 arg4 harg4 arg5 harg5 arg6 harg6 arg7 harg7 arg8 harg8) K := by
  simp only [cc1__edge_gate_kernel_eq_skeleton]; unfold cc1__edge_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _ _)

/-- The proof data of the call on core `c`: the arrays as found; after the body each input's buffer still at its block,
    each result's at its `out1_w` of the input blocks; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
import proofs.«411699_j69269232550020_3_alg».proof.Proof.Gen.Kernel.Launch
import proofs.«411699_j69269232550020_3_alg».proof.Proof.Gen.Kernel.Skeleton
import proofs.«411699_j69269232550020_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node-combine call (pipeline 2) at the contents `V` it is entered from

Windows 0..3 are the inputs (the node features, the first projection, the two scattered sums), window 4 the result.
At grid point `t` every window's block is rows `2000 t .. 2000 t + 1999` of its array. -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the pipeline fetched it there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches: a whole 2000 × 128 staging buffer. -/
abbrev r2_0 : Rect S2000x128 := Rect.unit (s := S2000x128) ![0, 0] S2000x128.size inb_S2000x128_S2000x128_0_0

/-- The result window's buffer after the body, as a function of the four input blocks: the body's single store,
    whose value is the pointwise expression `k2_pay1` of the loaded blocks (sums, denominators, projection, features). -/
def out2_4 (x0 x1 x2 x3 : Vec F S2000x128 .f32) : Vec F S2000x128 .f32 :=
  View.canon [⟨r2_0, k2_pay1 (View.ld x2 r2_0) (View.ld x3 r2_0) (View.ld x1 r2_0) (View.ld x0 r2_0)⟩]

/-- The single store covers the whole buffer. -/
theorem cover2_4 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
/-- The body on whole staging buffers: the inputs held at `x0 .. x3`, the result's buffer at anything; it ends with the
    inputs as they were and the result's buffer at `out2_4` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole)
    (x0 x1 x2 x3 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__node_combine_kernel i arg1 harg1 arg2 harg2 arg3 harg3 arg4 harg4 arg5 harg5) K := by
  simp only [cc2__node_combine_kernel_eq_skeleton]; unfold cc2__node_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of the call on core `c`: the arrays as found; after the body each input's buffer still at its block,
    the result's at `out2_4` of the input blocks; nothing carried, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
import proofs.«411699_j69269232550020_3_alg».proof.Proof.Gen.Kernel.Launch
import proofs.«411699_j69269232550020_3_alg».proof.Proof.Gen.Kernel.Skeleton
import proofs.«411699_j69269232550020_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«411699_j69269232550020_3_alg».proof.Proof.Gen.Kernel.Regions
import proofs.«411699_j69269232550020_3_alg».proof.Proof.KRegion0
import proofs.«411699_j69269232550020_3_alg».proof.Proof.KRegion1
import proofs.«411699_j69269232550020_3_alg».proof.Proof.KRegion2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: three host stretches and three calls, from the launch to the return

The contents of every unscoped buffer at each boundary are a fold from the launch memory: a host stretch applies its
operations, a call replaces its arrays by what its pipeline's write-backs leave. -/

/-- Core `c`'s buffers at launch. -/
abbrev W0 : Dev nD → Valuation τ sig (Elt F) := fun c b => m ((c : Dev nD), b)
/-- After the first host stretch (the weights side by side, the biases end to end): what call 0 is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- When call 0 returns: its arrays at what the pipeline leaves (the inputs as entered, each result's write-backs folded
    over the grid), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the three gathers): what call 1 is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- When call 1 returns: its arrays at what the pipeline leaves (the inputs as entered, each result's write-backs folded
    over the grid), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (the scatter-sum and its two halves): what call 2 is entered from. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- When call 2 returns: its arrays at what the pipeline leaves (the inputs as entered, each result's write-backs folded
    over the grid), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ### The arguments end as launched: no host operation writes one, and a call reads it through an input window or
    does not touch it, so the fold at an argument's buffer walks back to the launch memory. -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 0).trans (((dat2 (V5 m) c).arrAt_in 0 rfl _).trans (A_eq2 (V5 m) c 0))
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := (W4_arr m c 0).trans (((dat1 (V3 m) c).arrAt_in 0 rfl _).trans (A_eq1 (V3 m) c 0))
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := (W4_arr m c 4).trans (((dat1 (V3 m) c).arrAt_in 4 rfl _).trans (A_eq1 (V3 m) c 4))
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W6_main_arg9 (c : Dev nD) : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W6_main_arg10 (c : Dev nD) : W6 m c (Proc.devRef .tc main_arg10) = m ((c : Thread nD τ).loc main_arg10) :=
  calc W6 m c (Proc.devRef .tc main_arg10)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl
theorem W6_main_arg11 (c : Dev nD) : W6 m c (Proc.devRef .tc main_arg11) = m ((c : Thread nD τ).loc main_arg11) :=
  calc W6 m c (Proc.devRef .tc main_arg11)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl
theorem W6_main_arg12 (c : Dev nD) : W6 m c (Proc.devRef .tc main_arg12) = m ((c : Thread nD τ).loc main_arg12) :=
  calc W6 m c (Proc.devRef .tc main_arg12)
    _ = W5 m c (Proc.devRef .tc main_arg12) := W6_of_ne m c main_arg12 (by decide)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl
theorem W6_main_arg13 (c : Dev nD) : W6 m c (Proc.devRef .tc main_arg13) = m ((c : Thread nD τ).loc main_arg13) :=
  calc W6 m c (Proc.devRef .tc main_arg13)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl

/-! ## The proof data family and what rides beside the buffers -/

abbrev adm : (p : Fin 3) → (pcfgs (F := F) p).Adm := fun p => (cfgs p).toPCfg_adm
/-- Every pipeline's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W6`, the generator register at some state. -/
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Call 0 as a segment: entered with every unscoped buffer at `W1`, left with them at `W2`. Its arrays are split out of
    the unscoped buffers and put back at what the pipeline's write-backs leave; the generator register goes into the
    call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its arrays are split out of
    the unscoped buffers and put back at what the pipeline's write-backs leave; the generator register goes into the
    call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W5`, left with them at `W6`. Its arrays are split out of
    the unscoped buffers and put back at what the pipeline's write-backs leave; the generator register goes into the
    call's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of the program terminates without a fault,
    and in the final state every unscoped buffer of every core holds the fold's last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c),
    (h c _ (mem_uc main_arg11 (by decide))).trans (W6_main_arg11 m c),
    (h c _ (mem_uc main_arg12 (by decide))).trans (W6_main_arg12 m c),
    (h c _ (mem_uc main_arg13 (by decide))).trans (W6_main_arg13 m c)⟩)
    (run_all m ρ)

end Cert.Kernel.Hand

end
-- ==== Proof.KIRegion0.lean ====
import proofs.«411699_j69269232550020_3_alg».proof.Proof.Gen.KernelIdeal.Launch
import proofs.«411699_j69269232550020_3_alg».proof.Proof.Gen.KernelIdeal.Skeleton
import proofs.«411699_j69269232550020_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node-projection call (pipeline 0) at the contents `V` it is entered from

Window 0 is the node features (rows `2000 t .. 2000 t + 1999` at point `t`), windows 1 and 2 the four weight matrices laid
side by side and their biases laid end to end (whole, never re-fetched), windows 3..6 the four projections (the same
rows as window 0). -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the pipeline fetched it there or not
    (a window whose block index never moves is fetched once and keeps its block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body touches: each a whole staging buffer. -/
abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0

/-- Projection 0's buffer after the body: the body's one store into it, columns `0 .. 127` of the block's product
    with the side-by-side weights plus the biases. -/
def out0_3 (x0 : Vec F S2000x128 .f32) (x1 : Vec F S128x512 .f32) (x2 : Vec F S1x512 .f32) : Vec F S2000x128 .f32 :=
  View.canon [⟨r0_0, k0_pay2 (View.ld x0 r0_0) (View.ld x1 r0_1) (View.ld x2 r0_2)⟩]
theorem cover0_3 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y
/-- Projection 1's buffer after the body: the body's one store into it, columns `128 .. 255` of the block's product
    with the side-by-side weights plus the biases. -/
def out0_4 (x0 : Vec F S2000x128 .f32) (x1 : Vec F S128x512 .f32) (x2 : Vec F S1x512 .f32) : Vec F S2000x128 .f32 :=
  View.canon [⟨r0_0, k0_pay3 (View.ld x0 r0_0) (View.ld x1 r0_1) (View.ld x2 r0_2)⟩]
theorem cover0_4 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y
/-- Projection 2's buffer after the body: the body's one store into it, columns `256 .. 383` of the block's product
    with the side-by-side weights plus the biases. -/
def out0_5 (x0 : Vec F S2000x128 .f32) (x1 : Vec F S128x512 .f32) (x2 : Vec F S1x512 .f32) : Vec F S2000x128 .f32 :=
  View.canon [⟨r0_0, k0_pay4 (View.ld x0 r0_0) (View.ld x1 r0_1) (View.ld x2 r0_2)⟩]
theorem cover0_5 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y
/-- Projection 3's buffer after the body: the body's one store into it, columns `384 .. 511` of the block's product
    with the side-by-side weights plus the biases. -/
def out0_6 (x0 : Vec F S2000x128 .f32) (x1 : Vec F S128x512 .f32) (x2 : Vec F S1x512 .f32) : Vec F S2000x128 .f32 :=
  View.canon [⟨r0_0, k0_pay5 (View.ld x0 r0_0) (View.ld x1 r0_1) (View.ld x2 r0_2)⟩]
theorem cover0_6 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

set_option maxHeartbeats 4000000 in
/-- The body on whole staging buffers: the inputs held at `x0 ..`, the results' buffers at anything; it ends with the
    inputs as they were and each result's buffer at its `out0_w` of them. -/
theorem sound_kernel0 (c : Dev nD) (E : Set ℕ) (i : grid0.Coords) (arg1 : Memref sig .tc .vmem S2000x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 : Vec F S128x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2) ∗ owns (c : Thread nD τ) arg7 fullShare (out0_6 x0 x1 x2)) -∗ K ⟨⟩))
      ⊢ wp frame (wpE (defs₀ (F := F)) Variants.none c none) E (cc0__node_proj_kernel i arg1 harg1 arg2 harg2 arg3 harg3 arg4 harg4 arg5 harg5 arg6 harg6 arg7 harg7) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The proof data of the call on core `c`: the arrays as found; after the body each input's buffer still at its block,
    each result's at its `out0_w` of the input blocks; nothing carried between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is handed at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
import proofs.«411699_j69269232550020_3_alg».proof.Proof.Gen.KernelIdeal.Launch
import proofs.«411699_j69269232550020_3_alg».proof.Proof.Gen.KernelIdeal.Skeleton
import proofs.«411699_j69269232550020_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The edge-gate call (pipeline 1) at the contents `V` it is entered from

Windows 0..3 are the edge features and the three gathered node projections (rows `2000 t .. 2000 t + 1999` at point `t`),
windows 4 and 5 the edge weight matrix and its bias (whole, never re-fetched), window 6 the new edge features and window 7
the 256-wide pair (gate times gathered projection | gate), the same rows. -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the pipeline fetched it there or not
    (a window whose block index never moves is fetched once and keeps its block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: whole staging buffers, and the left and right halves of the 256-wide one. -/
abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S2000x256 := Rect.unit (s := S2000x256) ![0, 0] S2000x128.size inb_S2000x256_S2000x128_0_0
abbrev r1_4 : Rect S2000x256 := Rect.unit (s := S2000x256) ![0, 128] S2000x128.size inb_S2000x256_S2000x128_0_128

/-- The new edge features' buffer after the body: its one store, the edge block plus the positive part of the gate's argument. -/
def out1_6 (x0 x1 x2 x3 : Vec F S2000x128 .f32) (x4 : Vec F S128x128 .f32) (x5 : Vec F S1x128 .f32) : Vec F S2000x128 .f32 :=
  View.canon [⟨r1_0, k1_pay4 (View.ld x0 r1_0) (View.ld x4 r1_1) (View.ld x5 r1_2) (View.ld x1 r1_0) (View.ld x2 r1_0)⟩]
theorem cover1_6 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y
/-- The 256-wide buffer after the body: its two stores, the later first — the gate into the right half, the gate times
    the gathered projection into the left half. -/
def out1_7 (x0 x1 x2 x3 : Vec F S2000x128 .f32) (x4 : Vec F S128x128 .f32) (x5 : Vec F S1x128 .f32) : Vec F S2000x256 .f32 :=
  View.canon [⟨r1_4, k1_pay2 (View.ld x0 r1_0) (View.ld x4 r1_1) (View.ld x5 r1_2) (View.ld x1 r1_0) (View.ld x2 r1_0)⟩,
    ⟨r1_3, k1_pay3 (View.ld x0 r1_0) (View.ld x4 r1_1) (View.ld x5 r1_2) (View.ld x1 r1_0) (View.ld x2 r1_0) (View.ld x3 r1_0)⟩]
/-- The two halves tile the 256-wide buffer. -/
theorem cover1_7 (p0 p1 : Vec F S2000x128 .f32) (y : S2000x256.Idx) :
    ∃ pc ∈ ([⟨r1_4, p0⟩, ⟨r1_3, p1⟩] : List (View.Piece (Elt F) S2000x256 .f32)), y ∈ pc.1.set :=
  View.cover_of_tiled [⟨r1_4, p0⟩, ⟨r1_3, p1⟩] S2000x128.size (by rfl) y

set_option maxHeartbeats 4000000 in
/-- The body on whole staging buffers: the inputs held at `x0 ..`, the results' buffers at anything; it ends with the
    inputs as they were and each result's buffer at its `out1_w` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole)
    (x0 : Vec F S2000x128 .f32) (x1 : Vec F S2000x128 .f32) (x2 : Vec F S2000x128 .f32) (x3 : Vec F S2000x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__edge_gate_kernel i arg1 harg1 arg2 harg2 arg3 harg3 arg4 harg4 arg5 harg5 arg6 harg6 arg7 harg7 arg8 harg8) K := by
  simp only [cc1__edge_gate_kernel_eq_skeleton]; unfold cc1__edge_gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _ _)

/-- The proof data of the call on core `c`: the arrays as found; after the body each input's buffer still at its block,
    each result's at its `out1_w` of the input blocks; nothing carried between points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is handed at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
import proofs.«411699_j69269232550020_3_alg».proof.Proof.Gen.KernelIdeal.Launch
import proofs.«411699_j69269232550020_3_alg».proof.Proof.Gen.KernelIdeal.Skeleton
import proofs.«411699_j69269232550020_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The node-combine call (pipeline 2) at the contents `V` it is entered from

Windows 0..3 are the inputs (the node features, the first projection, the two scattered sums), window 4 the result.
At grid point `t` every window's block is rows `2000 t .. 2000 t + 1999` of its array. -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether the pipeline fetched it there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches: a whole 2000 × 128 staging buffer. -/
abbrev r2_0 : Rect S2000x128 := Rect.unit (s := S2000x128) ![0, 0] S2000x128.size inb_S2000x128_S2000x128_0_0

/-- The result window's buffer after the body, as a function of the four input blocks: the body's single store,
    whose value is the pointwise expression `k2_pay1` of the loaded blocks (sums, denominators, projection, features). -/
def out2_4 (x0 x1 x2 x3 : Vec F S2000x128 .f32) : Vec F S2000x128 .f32 :=
  View.canon [⟨r2_0, k2_pay1 (View.ld x2 r2_0) (View.ld x3 r2_0) (View.ld x1 r2_0) (View.ld x0 r2_0)⟩]

/-- The single store covers the whole buffer. -/
theorem cover2_4 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
/-- The body on whole staging buffers: the inputs held at `x0 .. x3`, the result's buffer at anything; it ends with the
    inputs as they were and the result's buffer at `out2_4` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole)
    (x0 x1 x2 x3 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__node_combine_kernel i arg1 harg1 arg2 harg2 arg3 harg3 arg4 harg4 arg5 harg5) K := by
  simp only [cc2__node_combine_kernel_eq_skeleton]; unfold cc2__node_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of the call on core `c`: the arrays as found; after the body each input's buffer still at its block,
    the result's at `out2_4` of the input blocks; nothing carried, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is handed at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
import proofs.«411699_j69269232550020_3_alg».proof.Proof.Gen.KernelIdeal.Launch
import proofs.«411699_j69269232550020_3_alg».proof.Proof.Gen.KernelIdeal.Skeleton
import proofs.«411699_j69269232550020_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«411699_j69269232550020_3_alg».proof.Proof.Gen.KernelIdeal.Regions
import proofs.«411699_j69269232550020_3_alg».proof.Proof.KIRegion0
import proofs.«411699_j69269232550020_3_alg».proof.Proof.KIRegion1
import proofs.«411699_j69269232550020_3_alg».proof.Proof.KIRegion2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: three host stretches and three calls, from the launch to the return

The contents of every unscoped buffer at each boundary are a fold from the launch memory: a host stretch applies its
operations, a call replaces its arrays by what its pipeline's write-backs leave. -/

/-- Core `c`'s buffers at launch. -/
abbrev W0 : Dev nD → Valuation τ sig (Elt F) := fun c b => m ((c : Dev nD), b)
/-- After the first host stretch (the weights side by side, the biases end to end): what call 0 is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- When call 0 returns: its arrays at what the pipeline leaves (the inputs as entered, each result's write-backs folded
    over the grid), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the three gathers): what call 1 is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- When call 1 returns: its arrays at what the pipeline leaves (the inputs as entered, each result's write-backs folded
    over the grid), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (the scatter-sum and its two halves): what call 2 is entered from. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- When call 2 returns: its arrays at what the pipeline leaves (the inputs as entered, each result's write-backs folded
    over the grid), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ### The arguments end as launched: no host operation writes one, and a call reads it through an input window or
    does not touch it, so the fold at an argument's buffer walks back to the launch memory. -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 0).trans (((dat2 (V5 m) c).arrAt_in 0 rfl _).trans (A_eq2 (V5 m) c 0))
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := (W4_arr m c 0).trans (((dat1 (V3 m) c).arrAt_in 0 rfl _).trans (A_eq1 (V3 m) c 0))
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_of_ne m c main_arg8 (by decide)
    _ = W4 m c (Proc.devRef .tc main_arg8) := StableHlo.after_of_writes_sub hostOps2 _ hostOps2_writes (by decide)
    _ = W3 m c (Proc.devRef .tc main_arg8) := (W4_arr m c 4).trans (((dat1 (V3 m) c).arrAt_in 4 rfl _).trans (A_eq1 (V3 m) c 4))
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W6_main_arg9 (c : Dev nD) : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := StableHlo.after_of_writes_sub hostOps2 _ hostOps2_writes (by decide)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W6_main_arg10 (c : Dev nD) : W6 m c (Proc.devRef .tc main_arg10) = m ((c : Thread nD τ).loc main_arg10) :=
  calc W6 m c (Proc.devRef .tc main_arg10)
    _ = W5 m c (Proc.devRef .tc main_arg10) := W6_of_ne m c main_arg10 (by decide)
    _ = W4 m c (Proc.devRef .tc main_arg10) := StableHlo.after_of_writes_sub hostOps2 _ hostOps2_writes (by decide)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl
theorem W6_main_arg11 (c : Dev nD) : W6 m c (Proc.devRef .tc main_arg11) = m ((c : Thread nD τ).loc main_arg11) :=
  calc W6 m c (Proc.devRef .tc main_arg11)
    _ = W5 m c (Proc.devRef .tc main_arg11) := W6_of_ne m c main_arg11 (by decide)
    _ = W4 m c (Proc.devRef .tc main_arg11) := StableHlo.after_of_writes_sub hostOps2 _ hostOps2_writes (by decide)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl
theorem W6_main_arg12 (c : Dev nD) : W6 m c (Proc.devRef .tc main_arg12) = m ((c : Thread nD τ).loc main_arg12) :=
  calc W6 m c (Proc.devRef .tc main_arg12)
    _ = W5 m c (Proc.devRef .tc main_arg12) := W6_of_ne m c main_arg12 (by decide)
    _ = W4 m c (Proc.devRef .tc main_arg12) := StableHlo.after_of_writes_sub hostOps2 _ hostOps2_writes (by decide)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl
theorem W6_main_arg13 (c : Dev nD) : W6 m c (Proc.devRef .tc main_arg13) = m ((c : Thread nD τ).loc main_arg13) :=
  calc W6 m c (Proc.devRef .tc main_arg13)
    _ = W5 m c (Proc.devRef .tc main_arg13) := W6_of_ne m c main_arg13 (by decide)
    _ = W4 m c (Proc.devRef .tc main_arg13) := StableHlo.after_of_writes_sub hostOps2 _ hostOps2_writes (by decide)
    _ = W3 m c (Proc.devRef .tc main_arg13) := W4_of_ne m c main_arg13 (by decide)
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl

/-! ## The proof data family and what rides beside the buffers -/

abbrev adm : (p : Fin 3) → (pcfgs (F := F) p).Adm := fun p => (cfgs p).toPCfg_adm
/-- Every pipeline's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W6`, the generator register at some state. -/
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Call 0 as a segment: entered with every unscoped buffer at `W1`, left with them at `W2`. Its arrays are split out of
    the unscoped buffers and put back at what the pipeline's write-backs leave; the generator register goes into the
    call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `W3`, left with them at `W4`. Its arrays are split out of
    the unscoped buffers and put back at what the pipeline's write-backs leave; the generator register goes into the
    call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered with every unscoped buffer at `W5`, left with them at `W6`. Its arrays are split out of
    the unscoped buffers and put back at what the pipeline's write-backs leave; the generator register goes into the
    call's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of the program terminates without a fault,
    and in the final state every unscoped buffer of every core holds the fold's last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c),
    (h c _ (mem_uc main_arg9 (by decide))).trans (W6_main_arg9 m c),
    (h c _ (mem_uc main_arg10 (by decide))).trans (W6_main_arg10 m c),
    (h c _ (mem_uc main_arg11 (by decide))).trans (W6_main_arg11 m c),
    (h c _ (mem_uc main_arg12 (by decide))).trans (W6_main_arg12 m c),
    (h c _ (mem_uc main_arg13 (by decide))).trans (W6_main_arg13 m c)⟩)
    (run_all m ρ)

end Cert.KernelIdeal.Hand

end
-- ==== Proof.Spec.lean ====
import proofs.«411699_j69269232550020_3_alg».proof.Proof.Gen.ReferenceIdeal
import Idealize.ShloMosaic.PureOps.Ideal
import Idealize.ShloMosaic.Lib.ValueIdx

/-! # The layer as whole-array functions

One gated graph-convolution layer over 50000 nodes and 800000 edges of width 128, written with the host's whole-array
operations: four node projections `x·W + b`, an edge projection, the projections gathered along the edges' end points
(a negative end point wraps around by 50000), the gate `σ = 1 / (1 + exp (−z))` of their sum `z`, the two sums over the
edges arriving at each node (of `σ · B` and of `σ`), and the two residual updates. Everything is generic in the number
type; the two programs are compared through these terms. -/

noncomputable section

namespace Cert.Spec

open Idealize.ShloMosaic Cert.ReferenceIdeal Cert.ReferenceIdeal.Gen

variable {F : FTy → Type} [FloatOps F]

/-- Node-sized, edge-sized, weight, bias and edge-index arrays. -/
abbrev NodeArr (F : FTy → Type) := (⟨S50000x128, .f32⟩ : BufTy).Contents (Elt F)
abbrev EdgeArr (F : FTy → Type) := (⟨S800000x128, .f32⟩ : BufTy).Contents (Elt F)
abbrev Wgt (F : FTy → Type) := (⟨S128x128, .f32⟩ : BufTy).Contents (Elt F)
abbrev Bias (F : FTy → Type) := (⟨S128, .f32⟩ : BufTy).Contents (Elt F)
abbrev EdgeIdx (F : FTy → Type) := (⟨S800000, .i32⟩ : BufTy).Contents (Elt F)

/-- `x·W + b` over the nodes: entry `(i, j)` is `∑ₖ x i k · W k j + b j`. -/
def projN (x : NodeArr F) (W : Wgt F) (b : Bias F) : NodeArr F :=
  addf (Host.dotGeneral dot_S50000x128_S128x128_S50000x128_1_0_0_1_n_n none x W) (broadcastInDim S50000x128 ![0, 1] bcast_S1x128_S50000x128_0_1 (broadcastInDim S1x128 ![1] bcast_S128_S1x128_1 b))

/-- `x·W + b` over the edges. -/
def projE (x : EdgeArr F) (W : Wgt F) (b : Bias F) : EdgeArr F :=
  addf (Host.dotGeneral dot_S800000x128_S128x128_S800000x128_1_0_0_1_n_n none x W) (broadcastInDim S800000x128 ![0, 1] bcast_S1x128_S800000x128_0_1 (broadcastInDim S1x128 ![1] bcast_S128_S1x128_1 b))

/-- The end points as a column of row numbers, a negative one wrapped around by 50000. -/
def wrapIdx (s : EdgeIdx F) : (⟨S800000x1, .i32⟩ : BufTy).Contents (Elt F) :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- Row `s e` of a node table, for every edge `e`. -/
def take (T : NodeArr F) (s : EdgeIdx F) : EdgeArr F :=
  Host.gather gather_S50000x128_S800000x1_S800000x128_1_0_n_n_0_1_1128 T (wrapIdx s)

/-- The gate's argument: edge projection plus the two gathered node projections. -/
def gateArg (Ce D E : EdgeArr F) : EdgeArr F := addf (addf Ce D) E

/-- The gate `1 / (1 + exp (−z))`. -/
def sigm (z : EdgeArr F) : EdgeArr F :=
  Host.divf (broadcastInDim S800000x128 ![] bcast_S_S800000x128 (constant S_ .f32 0x3F800000#32)) (addf (broadcastInDim S800000x128 ![] bcast_S_S800000x128 (constant S_ .f32 0x3F800000#32)) (Host.exp (Host.negf z)))

/-- The new edge features: `e + max z 0`. -/
def edgeOut (e z : EdgeArr F) : EdgeArr F :=
  addf e (maximumf z (broadcastInDim S800000x128 ![] bcast_S_S800000x128 (constant S_ .f32 0x00000000#32)))

/-- The sum of the rows `u e` over the edges `e` arriving at each node (an end point outside the nodes contributes nothing). -/
def segSum (dst : EdgeIdx F) (u : EdgeArr F) : NodeArr F :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) u

/-- The new node features: `h + max (Ah + num / (den + ε)) 0`. -/
def nodeOut (h Ah num den : NodeArr F) : NodeArr F :=
  addf h (maximumf (addf Ah (Host.divf num (addf den (broadcastInDim S50000x128 ![] bcast_S_S50000x128 (constant S_ .f32 0x358637BD#32))))) (broadcastInDim S50000x128 ![] bcast_S_S50000x128 (constant S_ .f32 0x00000000#32)))

/-- Two edge-sized arrays laid side by side as one array of width 256: columns 0..127 are `L`'s, columns 128..255 are `R`'s. -/
def pair256 (L R : EdgeArr F) : ((⟨⟨2, ![800000, 256]⟩, .f32⟩ : BufTy)).Contents (Elt F) :=
  fun (i : (⟨2, ![800000, 256]⟩ : Shape).Idx) =>
    if h : (i 1).val < 128 then L (ValueIdx.ix2 (i 0) (⟨(i 1).val, h⟩ : Fin 128))
    else R (ValueIdx.ix2 (i 0) (⟨(i 1).val - 128, by have := ValueIdx.idx2_lt1 i; omega⟩ : Fin 128))

/-- The gate's argument from the layer's inputs. -/
def zOf (h : NodeArr F) (e : EdgeArr F) (src dst : EdgeIdx F) (WC : Wgt F) (bC : Bias F) (WD : Wgt F) (bD : Bias F) (WE : Wgt F) (bE : Bias F) : EdgeArr F :=
  gateArg (projE e WC bC) (take (projN h WD bD) src) (take (projN h WE bE) dst)

/-- The layer's node result. -/
def layerNode (h : NodeArr F) (e : EdgeArr F) (src dst : EdgeIdx F) (WA : Wgt F) (bA : Bias F) (WB : Wgt F) (bB : Bias F) (WC : Wgt F) (bC : Bias F)
    (WD : Wgt F) (bD : Bias F) (WE : Wgt F) (bE : Bias F) : NodeArr F :=
  nodeOut h (projN h WA bA)
    (segSum dst (mulf (sigm (zOf h e src dst WC bC WD bD WE bE)) (take (projN h WB bB) src)))
    (segSum dst (sigm (zOf h e src dst WC bC WD bD WE bE)))

/-- The layer's edge result. -/
def layerEdge (h : NodeArr F) (e : EdgeArr F) (src dst : EdgeIdx F) (WC : Wgt F) (bC : Bias F) (WD : Wgt F) (bD : Bias F) (WE : Wgt F) (bE : Bias F) : EdgeArr F :=
  edgeOut e (zOf h e src dst WC bC WD bD WE bE)

end Cert.Spec

end
-- ==== Proof.KIValue0.lean ====
import proofs.«411699_j69269232550020_3_alg».proof.Proof.KIRegion0
import proofs.«411699_j69269232550020_3_alg».proof.Proof.KIRegion1
import proofs.«411699_j69269232550020_3_alg».proof.Proof.KIRegion2
import proofs.«411699_j69269232550020_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # What call 0 leaves in its four result arrays

Result `j` (`j = 0..3`) is the node features times the `j`-th 128-column block of the side-by-side weights, plus the
`j`-th 128-entry block of the end-to-end biases: with those blocks named `W` and `b`, the projection `x·W + b`. -/

/-! ## The body's product at an index -/

/-- The kernel's product contracts the left operand's columns against the right operand's rows: the operand
    indices at result index `i` and contraction index `q`, axis by axis. -/
theorem mmL_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem mmL_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
theorem mmR_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
theorem mmR_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- Entry `(p, q)` of the block's product with the side-by-side weights, from a zero accumulator: row `p` of the
    block against column `q` of the weights. -/
theorem mm_apply (l : FVec Ideal S2000x128 .bf16) (r : FVec Ideal S128x512 .bf16) (p : Fin 2000) (q : Fin 512) :
    matmul dot_S2000x128_S128x512_S2000x512_1_0_0_1_n_n none l r (constant (F := Ideal) S2000x512 .f32 0x00000000#32) (ix2 p q)
      = ∑ k : Fin 128, l (ix2 p k) * r (ix2 k q) := by
  refine (Ideal.matmul_constant_zero_apply dot_S2000x128_S128x512_S2000x512_1_0_0_1_n_n none l r (ix2 p q)).trans ?_
  rw [← Equiv.sum_comp (ValueIdx.contrEquiv1 dot_S2000x128_S128x512_S2000x512_1_0_0_1_n_n 128 rfl rfl).symm]
  refine Finset.sum_congr rfl fun k _ => ?_
  have hk := ValueIdx.contrEquiv1_symm_val dot_S2000x128_S128x512_S2000x512_1_0_0_1_n_n 128 rfl rfl k
  have el : dot_S2000x128_S128x512_S2000x512_1_0_0_1_n_n.lhsIdx (ix2 p q) ((ValueIdx.contrEquiv1 dot_S2000x128_S128x512_S2000x512_1_0_0_1_n_n 128 rfl rfl).symm k) = ix2 p k := funext fun a => Fin.ext (by
    match a with
    | ⟨0, _⟩ => exact mmL_0 _ _
    | ⟨1, _⟩ => exact (mmL_1 _ _).trans hk)
  have er : dot_S2000x128_S128x512_S2000x512_1_0_0_1_n_n.rhsIdx (ix2 p q) ((ValueIdx.contrEquiv1 dot_S2000x128_S128x512_S2000x512_1_0_0_1_n_n 128 rfl rfl).symm k) = ix2 k q := funext fun a => Fin.ext (by
    match a with
    | ⟨0, _⟩ => exact (mmR_0 _ _).trans hk
    | ⟨1, _⟩ => exact mmR_1 _ _)
  rw [el, er]

/-- The biases' row laid under every row of the block. -/
theorem biasRow_apply (x2 : Vec Ideal S1x512 .f32) (p : Fin 2000) (q : Fin 512) :
    broadcastTo S2000x512 x2 broadcasts_S1x512_S2000x512 (ix2 p q) = x2 (ix2 (0 : Fin 1) q) :=
  broadcastTo_apply x2 broadcasts_S1x512_S2000x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- Entry `(p, q)` of the body's full-width value: row `p` of the block against column `q` of the weights, plus
    bias `q`. -/
theorem pay1_apply (x0 : Vec Ideal S2000x128 .f32) (x1 : Vec Ideal S128x512 .f32) (x2 : Vec Ideal S1x512 .f32) (p : Fin 2000) (q : Fin 512) :
    k0_pay1 (F := Ideal) x0 x1 x2 (ix2 p q) = (∑ k : Fin 128, x0 (ix2 p k) * x1 (ix2 k q)) + x2 (ix2 (0 : Fin 1) q) := by
  unfold k0_pay1
  rw [shapeCast_self, shapeCast_self, addf_apply, mm_apply, biasRow_apply]
  rfl

/-- Columns `off .. off + 127` cut out of a full-width value. -/
theorem cols_apply (off : Nat) (hoff : off + 128 ≤ 512) (h : S2000x512.Slices ![0, off] S2000x128) (y : Vec Ideal S2000x512 .f32) (p : Fin 2000) (q : Fin 128) :
    extractStridedSlice S2000x128 ![0, off] y h (ix2 p q) = y (ix2 p (⟨q.val + off, by omega⟩ : Fin 512)) :=
  extractStridedSlice_apply ![0, off] y h (ix2 p q) (ix2 p (⟨q.val + off, by omega⟩ : Fin 512)) (fun a => match a with
    | ⟨0, _⟩ => by show p.val = 0 + p.val; omega
    | ⟨1, _⟩ => by show q.val + off = off + q.val; omega)

/-- Entry `(p, q)` of what the body stores into result `j`'s buffer: row `p` of the block against column
    `128 j + q` of the weights, plus bias `128 j + q`. -/
theorem pay2_apply (x0 : Vec Ideal S2000x128 .f32) (x1 : Vec Ideal S128x512 .f32) (x2 : Vec Ideal S1x512 .f32) (p : Fin 2000) (q : Fin 128) :
    k0_pay2 (F := Ideal) x0 x1 x2 (ix2 p q) = (∑ k : Fin 128, x0 (ix2 p k) * x1 (ix2 k (⟨q.val + 0, by omega⟩ : Fin 512))) + x2 (ix2 (0 : Fin 1) (⟨q.val + 0, by omega⟩ : Fin 512)) := by
  unfold k0_pay2
  exact (cols_apply 0 (by omega) _ _ p q).trans (pay1_apply x0 x1 x2 p _)
theorem pay3_apply (x0 : Vec Ideal S2000x128 .f32) (x1 : Vec Ideal S128x512 .f32) (x2 : Vec Ideal S1x512 .f32) (p : Fin 2000) (q : Fin 128) :
    k0_pay3 (F := Ideal) x0 x1 x2 (ix2 p q) = (∑ k : Fin 128, x0 (ix2 p k) * x1 (ix2 k (⟨q.val + 128, by omega⟩ : Fin 512))) + x2 (ix2 (0 : Fin 1) (⟨q.val + 128, by omega⟩ : Fin 512)) := by
  unfold k0_pay3
  exact (cols_apply 128 (by omega) _ _ p q).trans (pay1_apply x0 x1 x2 p _)
theorem pay4_apply (x0 : Vec Ideal S2000x128 .f32) (x1 : Vec Ideal S128x512 .f32) (x2 : Vec Ideal S1x512 .f32) (p : Fin 2000) (q : Fin 128) :
    k0_pay4 (F := Ideal) x0 x1 x2 (ix2 p q) = (∑ k : Fin 128, x0 (ix2 p k) * x1 (ix2 k (⟨q.val + 256, by omega⟩ : Fin 512))) + x2 (ix2 (0 : Fin 1) (⟨q.val + 256, by omega⟩ : Fin 512)) := by
  unfold k0_pay4
  exact (cols_apply 256 (by omega) _ _ p q).trans (pay1_apply x0 x1 x2 p _)
theorem pay5_apply (x0 : Vec Ideal S2000x128 .f32) (x1 : Vec Ideal S128x512 .f32) (x2 : Vec Ideal S1x512 .f32) (p : Fin 2000) (q : Fin 128) :
    k0_pay5 (F := Ideal) x0 x1 x2 (ix2 p q) = (∑ k : Fin 128, x0 (ix2 p k) * x1 (ix2 k (⟨q.val + 384, by omega⟩ : Fin 512))) + x2 (ix2 (0 : Fin 1) (⟨q.val + 384, by omega⟩ : Fin 512)) := by
  unfold k0_pay5
  exact (cols_apply 384 (by omega) _ _ p q).trans (pay1_apply x0 x1 x2 p _)

/-! ## The projection `x·W + b` at an index -/

theorem projL_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem projL_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem projR_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem projR_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- Entry `(r, q)` of the nodes' product with one weight matrix. -/
theorem dotN_apply (x : Spec.NodeArr Ideal) (W : Spec.Wgt Ideal) (r : Fin 50000) (q : Fin 128) :
    Host.dotGeneral (F := Ideal) (φ₁ := .f32) (φ₂ := .f32) Cert.ReferenceIdeal.dot_S50000x128_S128x128_S50000x128_1_0_0_1_n_n none x W (ix2 r q)
      = ∑ k : Fin 128, x (ix2 r k) * W (ix2 k q) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((ValueIdx.contrEquiv1 Cert.ReferenceIdeal.dot_S50000x128_S128x128_S50000x128_1_0_0_1_n_n 128 rfl rfl).symm k) = ix2 r k := funext fun a => Fin.ext (by
    match a with
    | ⟨0, _⟩ => exact projL_0 _ _
    | ⟨1, _⟩ => exact (projL_1 _ _).trans hk)
  have er : Cert.ReferenceIdeal.dot_S50000x128_S128x128_S50000x128_1_0_0_1_n_n.rhsIdx (ix2 r q) ((ValueIdx.contrEquiv1 Cert.ReferenceIdeal.dot_S50000x128_S128x128_S50000x128_1_0_0_1_n_n 128 rfl rfl).symm k) = ix2 k q := funext fun a => Fin.ext (by
    match a with
    | ⟨0, _⟩ => exact (projR_0 _ _).trans hk
    | ⟨1, _⟩ => exact projR_1 _ _)
  rw [el, er]

/-- The bias vector laid under every row of the nodes. -/
theorem biasN_apply (h1 : Cert.ReferenceIdeal.S1x128.BroadcastsInDim Cert.ReferenceIdeal.S50000x128 (![0, 1] : Fin 2 → Fin Cert.ReferenceIdeal.S50000x128.rank))
    (h2 : Cert.ReferenceIdeal.S128.BroadcastsInDim Cert.ReferenceIdeal.S1x128 (![1] : Fin 1 → Fin Cert.ReferenceIdeal.S1x128.rank))
    (b : Spec.Bias Ideal) (r : Fin 50000) (q : Fin 128) :
    broadcastInDim Cert.ReferenceIdeal.S50000x128 ![0, 1] h1 (broadcastInDim Cert.ReferenceIdeal.S1x128 ![1] h2 b) (ix2 r q) = b (ix1 q) := by
  refine (broadcastInDim_apply _ h1 _ (ix2 r q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])).trans ?_
  exact broadcastInDim_apply _ h2 b (ix2 (0 : Fin 1) q) (ix1 q) (fun a => match a with
    | ⟨0, _⟩ => by show q.val = if (128 : Nat) = 1 then 0 else q.val; rw [if_neg (by decide)])

/-- Entry `(r, q)` of `x·W + b`. -/
theorem projN_apply (x : Spec.NodeArr Ideal) (W : Spec.Wgt Ideal) (b : Spec.Bias Ideal) (r : Fin 50000) (q : Fin 128) :
    Spec.projN (F := Ideal) x W b (ix2 r q) = (∑ k : Fin 128, x (ix2 r k) * W (ix2 k q)) + b (ix1 q) := by
  unfold Spec.projN
  rw [addf_apply, dotN_apply, biasN_apply]

/-! ## From the blocks to the arrays -/

theorem origin2 : (![0, 0] : Fin 2 → Nat) = fun _ => 0 := funext fun a => by fin_cases a <;> rfl

/-- The block indices over the grid: the node features and the four results move one block of 2000 rows down per
    point, the weights and biases stay at their one block. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of point `t`'s block is a row of the nodes. -/
theorem row_lt (t : Fin cfg0.N) (p : Fin 2000) : t.val * 2000 + p.val < 50000 := by
  have ht : t.val < 25 := Nat.lt_of_lt_of_eq t.isLt N_0
  have hp := p.isLt
  omega

/-- The node features' block at point `t` is rows `2000 t ..` of the array. -/
theorem nodesBlk_apply (c : Dev nD) (t : Fin cfg0.N) (p : Fin 2000) (k : Fin 128) :
    iblk0 V c 0 t (ix2 p k) = (V c main_arg0 : Spec.NodeArr Ideal) (ix2 (⟨t.val * 2000 + p.val, row_lt t p⟩ : Fin 50000) k) := by
  obtain ⟨e0, e1, -⟩ := blockIdx0 t
  show (V c main_arg0 : Spec.NodeArr Ideal) (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The weights' block is the whole array, at every point. -/
theorem wgtBlk_apply (c : Dev nD) (t : Fin cfg0.N) (k : Fin 128) (q : Fin 512) :
    iblk0 V c 1 t (ix2 k q) = (V c main_v0 : (⟨S128x512, .f32⟩ : BufTy).Contents (Elt Ideal)) (ix2 k q) := by
  obtain ⟨-, -, e2, e3, -⟩ := blockIdx0 t
  show (V c main_v0 : (⟨S128x512, .f32⟩ : BufTy).Contents (Elt Ideal)) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 512 + 1 * q.val = q.val; omega

/-- The biases' block is the whole array, at every point. -/
theorem biasBlk_apply (c : Dev nD) (t : Fin cfg0.N) (q : Fin 512) :
    iblk0 V c 2 t (ix2 (0 : Fin 1) q) = (V c main_v2 : (⟨S1x512, .f32⟩ : BufTy).Contents (Elt Ideal)) (ix2 (0 : Fin 1) q) := by
  obtain ⟨-, -, -, -, e4, e5, -⟩ := blockIdx0 t
  show (V c main_v2 : (⟨S1x512, .f32⟩ : BufTy).Contents (Elt Ideal)) (((cfg0.win 2).blk t).view.emb (ix2 (0 : Fin 1) q)) = _
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

/-- Row `p` of a block that holds row `r` of the nodes, against columns `off ..` of weights laid side by side, plus
    those biases, is row `r` of the projection whose weights and biases those columns are. -/
theorem point_eq (off : Nat) (hoff : off + 128 ≤ 512) (x : Spec.NodeArr Ideal)
    (Wc : (⟨S128x512, .f32⟩ : BufTy).Contents (Elt Ideal)) (bc : (⟨S1x512, .f32⟩ : BufTy).Contents (Elt Ideal)) (W : Spec.Wgt Ideal) (b : Spec.Bias Ideal)
    (hW : ∀ k q : Fin 128, Wc (ix2 k (⟨q.val + off, by omega⟩ : Fin 512)) = W (ix2 k q))
    (hb : ∀ q : Fin 128, bc (ix2 (0 : Fin 1) (⟨q.val + off, by omega⟩ : Fin 512)) = b (ix1 q))
    (x0 : Vec Ideal S2000x128 .f32) (x1 : Vec Ideal S128x512 .f32) (x2 : Vec Ideal S1x512 .f32) (r : Fin 50000) (p : Fin 2000)
    (h0 : ∀ k : Fin 128, x0 (ix2 p k) = x (ix2 r k)) (h1 : ∀ (k : Fin 128) (q : Fin 512), x1 (ix2 k q) = Wc (ix2 k q))
    (h2 : ∀ q : Fin 512, x2 (ix2 (0 : Fin 1) q) = bc (ix2 (0 : Fin 1) q)) (q : Fin 128) :
    (∑ k : Fin 128, x0 (ix2 p k) * x1 (ix2 k (⟨q.val + off, by omega⟩ : Fin 512))) + x2 (ix2 (0 : Fin 1) (⟨q.val + off, by omega⟩ : Fin 512))
      = Spec.projN x W b (ix2 r q) := by
  rw [projN_apply, h2, hb]
  refine congrArg (· + b (ix1 q)) (Finset.sum_congr rfl fun k _ => ?_)
  rw [h0, h1, hW]

/-! ### Result 0 -/

/-- What point `t` writes back to result 0 is block `t` of the projection. -/
theorem wroteBack0_3 (c : Dev nD) (W : Spec.Wgt Ideal) (b : Spec.Bias Ideal)
    (hW : ∀ k q : Fin 128, (V c main_v0 : (⟨S128x512, .f32⟩ : BufTy).Contents (Elt Ideal)) (ix2 k (⟨q.val + 0, by omega⟩ : Fin 512)) = W (ix2 k q))
    (hb : ∀ q : Fin 128, (V c main_v2 : (⟨S1x512, .f32⟩ : BufTy).Contents (Elt Ideal)) (ix2 (0 : Fin 1) (⟨q.val + 0, by omega⟩ : Fin 512)) = b (ix1 q))
    (t : Fin cfg0.N) :
    (dat0 (F := Ideal) V c).flushed 3 t = ((cfg0.win 3).blk t).view.read (Elt Ideal) (Spec.projN (V c main_arg0) W b) := by
  show (cfg0.win 3).cut (grid0.coords t) ((dat0 V c).after 3 t) = _
  rw [after0_3]
  unfold out0_3
  rw [View.canon_unit_zero origin2]
  simp only [View.ld_unit_zero (S := S2000x128) origin2, View.ld_unit_zero (S := S128x512) origin2, View.ld_unit_zero (S := S1x512) origin2]
  obtain ⟨-, -, -, -, -, -, e6, e7, -⟩ := blockIdx0 t
  funext y
  have hy : (cfg0.win 3).xinj (grid0.coords t) y = ix2 (⟨(y 0).val, (y 0).isLt⟩ : Fin 2000) (⟨(y 1).val, (y 1).isLt⟩ : Fin 128) :=
    funext fun a => match a with
      | ⟨0, _⟩ => rfl
      | ⟨1, _⟩ => rfl
  have he : ((cfg0.win 3).blk t).view.emb y = ix2 (⟨t.val * 2000 + (y 0).val, row_lt t ⟨(y 0).val, (y 0).isLt⟩⟩ : Fin 50000) (⟨(y 1).val, (y 1).isLt⟩ : Fin 128) := by
    funext a; apply Fin.ext
    match a with
    | ⟨0, _⟩ => show win0_3.index t (0 : Fin 2) * 2000 + 1 * (y 0).val = t.val * 2000 + (y 0).val; omega
    | ⟨1, _⟩ => show win0_3.index t (1 : Fin 2) * 128 + 1 * (y 1).val = (y 1).val; omega
  show k0_pay2 (F := Ideal) (iblk0 V c 0 t) (iblk0 V c 1 t) (iblk0 V c 2 t) ((cfg0.win 3).xinj (grid0.coords t) y) = Spec.projN (V c main_arg0) W b (((cfg0.win 3).blk t).view.emb y)
  rw [hy, he, pay2_apply]
  exact point_eq 0 (by omega) (V c main_arg0) (V c main_v0) (V c main_v2) W b hW hb (iblk0 V c 0 t) (iblk0 V c 1 t) (iblk0 V c 2 t) _ _
    (fun k => nodesBlk_apply V c t _ k) (fun k q => wgtBlk_apply V c t k q) (fun q => biasBlk_apply V c t q) _

/-- A row of result 0 is in point `t`'s block iff it is one of rows `2000 t .. 2000 t + 1999`. -/
theorem memBlk0_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v3_0).slice (win0_3.rect t)).set ↔ _
  rw [View.set_slice_whole, Rect.mem_set_unit]
  exact Iff.rfl

/-- Every row of result 0 is written back by the point its block of 2000 rows belongs to. -/
theorem covered0_3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, Nat.lt_of_lt_of_eq (by omega) N_0.symm⟩, rfl⟩
  obtain ⟨-, -, -, -, -, -, e6, e7, -⟩ := blockIdx0 t
  refine ⟨t, flush0_3 t, ?_⟩
  rw [memBlk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem final0_3 (c : Dev nD) (W : Spec.Wgt Ideal) (b : Spec.Bias Ideal)
    (hW : ∀ k q : Fin 128, (V c main_v0 : (⟨S128x512, .f32⟩ : BufTy).Contents (Elt Ideal)) (ix2 k (⟨q.val + 0, by omega⟩ : Fin 512)) = W (ix2 k q))
    (hb : ∀ q : Fin 128, (V c main_v2 : (⟨S1x512, .f32⟩ : BufTy).Contents (Elt Ideal)) (ix2 (0 : Fin 1) (⟨q.val + 0, by omega⟩ : Fin 512)) = b (ix1 q)) :
    (dat0 (F := Ideal) V c).arrAt 3 cfg0.N = Spec.projN (V c main_arg0) W b := by
  exact (dat0 (F := Ideal) V c).arrAt_eq_of_cover 3 (Spec.projN (V c main_arg0) W b) (fun t _ => wroteBack0_3 V c W b hW hb t) covered0_3

/-! ### Result 1 -/

/-- What point `t` writes back to result 1 is block `t` of the projection. -/
theorem wroteBack0_4 (c : Dev nD) (W : Spec.Wgt Ideal) (b : Spec.Bias Ideal)
    (hW : ∀ k q : Fin 128, (V c main_v0 : (⟨S128x512, .f32⟩ : BufTy).Contents (Elt Ideal)) (ix2 k (⟨q.val + 128, by omega⟩ : Fin 512)) = W (ix2 k q))
    (hb : ∀ q : Fin 128, (V c main_v2 : (⟨S1x512, .f32⟩ : BufTy).Contents (Elt Ideal)) (ix2 (0 : Fin 1) (⟨q.val + 128, by omega⟩ : Fin 512)) = b (ix1 q))
    (t : Fin cfg0.N) :
    (dat0 (F := Ideal) V c).flushed 4 t = ((cfg0.win 4).blk t).view.read (Elt Ideal) (Spec.projN (V c main_arg0) W b) := by
  show (cfg0.win 4).cut (grid0.coords t) ((dat0 V c).after 4 t) = _
  rw [after0_4]
  unfold out0_4
  rw [View.canon_unit_zero origin2]
  simp only [View.ld_unit_zero (S := S2000x128) origin2, View.ld_unit_zero (S := S128x512) origin2, View.ld_unit_zero (S := S1x512) origin2]
  obtain ⟨-, -, -, -, -, -, -, -, e8, e9, -⟩ := blockIdx0 t
  funext y
  have hy : (cfg0.win 4).xinj (grid0.coords t) y = ix2 (⟨(y 0).val, (y 0).isLt⟩ : Fin 2000) (⟨(y 1).val, (y 1).isLt⟩ : Fin 128) :=
    funext fun a => match a with
      | ⟨0, _⟩ => rfl
      | ⟨1, _⟩ => rfl
  have he : ((cfg0.win 4).blk t).view.emb y = ix2 (⟨t.val * 2000 + (y 0).val, row_lt t ⟨(y 0).val, (y 0).isLt⟩⟩ : Fin 50000) (⟨(y 1).val, (y 1).isLt⟩ : Fin 128) := by
    funext a; apply Fin.ext
    match a with
    | ⟨0, _⟩ => show win0_4.index t (0 : Fin 2) * 2000 + 1 * (y 0).val = t.val * 2000 + (y 0).val; omega
    | ⟨1, _⟩ => show win0_4.index t (1 : Fin 2) * 128 + 1 * (y 1).val = (y 1).val; omega
  show k0_pay3 (F := Ideal) (iblk0 V c 0 t) (iblk0 V c 1 t) (iblk0 V c 2 t) ((cfg0.win 4).xinj (grid0.coords t) y) = Spec.projN (V c main_arg0) W b (((cfg0.win 4).blk t).view.emb y)
  rw [hy, he, pay3_apply]
  exact point_eq 128 (by omega) (V c main_arg0) (V c main_v0) (V c main_v2) W b hW hb (iblk0 V c 0 t) (iblk0 V c 1 t) (iblk0 V c 2 t) _ _
    (fun k => nodesBlk_apply V c t _ k) (fun k q => wgtBlk_apply V c t k q) (fun q => biasBlk_apply V c t q) _

/-- A row of result 1 is in point `t`'s block iff it is one of rows `2000 t .. 2000 t + 1999`. -/
theorem memBlk0_4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v3_1).slice (win0_4.rect t)).set ↔ _
  rw [View.set_slice_whole, Rect.mem_set_unit]
  exact Iff.rfl

/-- Every row of result 1 is written back by the point its block of 2000 rows belongs to. -/
theorem covered0_4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, Nat.lt_of_lt_of_eq (by omega) N_0.symm⟩, rfl⟩
  obtain ⟨-, -, -, -, -, -, -, -, e8, e9, -⟩ := blockIdx0 t
  refine ⟨t, flush0_4 t, ?_⟩
  rw [memBlk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

theorem final0_4 (c : Dev nD) (W : Spec.Wgt Ideal) (b : Spec.Bias Ideal)
    (hW : ∀ k q : Fin 128, (V c main_v0 : (⟨S128x512, .f32⟩ : BufTy).Contents (Elt Ideal)) (ix2 k (⟨q.val + 128, by omega⟩ : Fin 512)) = W (ix2 k q))
    (hb : ∀ q : Fin 128, (V c main_v2 : (⟨S1x512, .f32⟩ : BufTy).Contents (Elt Ideal)) (ix2 (0 : Fin 1) (⟨q.val + 128, by omega⟩ : Fin 512)) = b (ix1 q)) :
    (dat0 (F := Ideal) V c).arrAt 4 cfg0.N = Spec.projN (V c main_arg0) W b := by
  exact (dat0 (F := Ideal) V c).arrAt_eq_of_cover 4 (Spec.projN (V c main_arg0) W b) (fun t _ => wroteBack0_4 V c W b hW hb t) covered0_4

/-! ### Result 2 -/

/-- What point `t` writes back to result 2 is block `t` of the projection. -/
theorem wroteBack0_5 (c : Dev nD) (W : Spec.Wgt Ideal) (b : Spec.Bias Ideal)
    (hW : ∀ k q : Fin 128, (V c main_v0 : (⟨S128x512, .f32⟩ : BufTy).Contents (Elt Ideal)) (ix2 k (⟨q.val + 256, by omega⟩ : Fin 512)) = W (ix2 k q))
    (hb : ∀ q : Fin 128, (V c main_v2 : (⟨S1x512, .f32⟩ : BufTy).Contents (Elt Ideal)) (ix2 (0 : Fin 1) (⟨q.val + 256, by omega⟩ : Fin 512)) = b (ix1 q))
    (t : Fin cfg0.N) :
    (dat0 (F := Ideal) V c).flushed 5 t = ((cfg0.win 5).blk t).view.read (Elt Ideal) (Spec.projN (V c main_arg0) W b) := by
  show (cfg0.win 5).cut (grid0.coords t) ((dat0 V c).after 5 t) = _
  rw [after0_5]
  unfold out0_5
  rw [View.canon_unit_zero origin2]
  simp only [View.ld_unit_zero (S := S2000x128) origin2, View.ld_unit_zero (S := S128x512) origin2, View.ld_unit_zero (S := S1x512) origin2]
  obtain ⟨-, -, -, -, -, -, -, -, -, -, e10, e11, -⟩ := blockIdx0 t
  funext y
  have hy : (cfg0.win 5).xinj (grid0.coords t) y = ix2 (⟨(y 0).val, (y 0).isLt⟩ : Fin 2000) (⟨(y 1).val, (y 1).isLt⟩ : Fin 128) :=
    funext fun a => match a with
      | ⟨0, _⟩ => rfl
      | ⟨1, _⟩ => rfl
  have he : ((cfg0.win 5).blk t).view.emb y = ix2 (⟨t.val * 2000 + (y 0).val, row_lt t ⟨(y 0).val, (y 0).isLt⟩⟩ : Fin 50000) (⟨(y 1).val, (y 1).isLt⟩ : Fin 128) := by
    funext a; apply Fin.ext
    match a with
    | ⟨0, _⟩ => show win0_5.index t (0 : Fin 2) * 2000 + 1 * (y 0).val = t.val * 2000 + (y 0).val; omega
    | ⟨1, _⟩ => show win0_5.index t (1 : Fin 2) * 128 + 1 * (y 1).val = (y 1).val; omega
  show k0_pay4 (F := Ideal) (iblk0 V c 0 t) (iblk0 V c 1 t) (iblk0 V c 2 t) ((cfg0.win 5).xinj (grid0.coords t) y) = Spec.projN (V c main_arg0) W b (((cfg0.win 5).blk t).view.emb y)
  rw [hy, he, pay4_apply]
  exact point_eq 256 (by omega) (V c main_arg0) (V c main_v0) (V c main_v2) W b hW hb (iblk0 V c 0 t) (iblk0 V c 1 t) (iblk0 V c 2 t) _ _
    (fun k => nodesBlk_apply V c t _ k) (fun k q => wgtBlk_apply V c t k q) (fun q => biasBlk_apply V c t q) _

/-- A row of result 2 is in point `t`'s block iff it is one of rows `2000 t .. 2000 t + 1999`. -/
theorem memBlk0_5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v3_2).slice (win0_5.rect t)).set ↔ _
  rw [View.set_slice_whole, Rect.mem_set_unit]
  exact Iff.rfl

/-- Every row of result 2 is written back by the point its block of 2000 rows belongs to. -/
theorem covered0_5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, Nat.lt_of_lt_of_eq (by omega) N_0.symm⟩, rfl⟩
  obtain ⟨-, -, -, -, -, -, -, -, -, -, e10, e11, -⟩ := blockIdx0 t
  refine ⟨t, flush0_5 t, ?_⟩
  rw [memBlk0_5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

theorem final0_5 (c : Dev nD) (W : Spec.Wgt Ideal) (b : Spec.Bias Ideal)
    (hW : ∀ k q : Fin 128, (V c main_v0 : (⟨S128x512, .f32⟩ : BufTy).Contents (Elt Ideal)) (ix2 k (⟨q.val + 256, by omega⟩ : Fin 512)) = W (ix2 k q))
    (hb : ∀ q : Fin 128, (V c main_v2 : (⟨S1x512, .f32⟩ : BufTy).Contents (Elt Ideal)) (ix2 (0 : Fin 1) (⟨q.val + 256, by omega⟩ : Fin 512)) = b (ix1 q)) :
    (dat0 (F := Ideal) V c).arrAt 5 cfg0.N = Spec.projN (V c main_arg0) W b := by
  exact (dat0 (F := Ideal) V c).arrAt_eq_of_cover 5 (Spec.projN (V c main_arg0) W b) (fun t _ => wroteBack0_5 V c W b hW hb t) covered0_5

/-! ### Result 3 -/

/-- What point `t` writes back to result 3 is block `t` of the projection. -/
theorem wroteBack0_6 (c : Dev nD) (W : Spec.Wgt Ideal) (b : Spec.Bias Ideal)
    (hW : ∀ k q : Fin 128, (V c main_v0 : (⟨S128x512, .f32⟩ : BufTy).Contents (Elt Ideal)) (ix2 k (⟨q.val + 384, by omega⟩ : Fin 512)) = W (ix2 k q))
    (hb : ∀ q : Fin 128, (V c main_v2 : (⟨S1x512, .f32⟩ : BufTy).Contents (Elt Ideal)) (ix2 (0 : Fin 1) (⟨q.val + 384, by omega⟩ : Fin 512)) = b (ix1 q))
    (t : Fin cfg0.N) :
    (dat0 (F := Ideal) V c).flushed 6 t = ((cfg0.win 6).blk t).view.read (Elt Ideal) (Spec.projN (V c main_arg0) W b) := by
  show (cfg0.win 6).cut (grid0.coords t) ((dat0 V c).after 6 t) = _
  rw [after0_6]
  unfold out0_6
  rw [View.canon_unit_zero origin2]
  simp only [View.ld_unit_zero (S := S2000x128) origin2, View.ld_unit_zero (S := S128x512) origin2, View.ld_unit_zero (S := S1x512) origin2]
  obtain ⟨-, -, -, -, -, -, -, -, -, -, -, -, e12, e13⟩ := blockIdx0 t
  funext y
  have hy : (cfg0.win 6).xinj (grid0.coords t) y = ix2 (⟨(y 0).val, (y 0).isLt⟩ : Fin 2000) (⟨(y 1).val, (y 1).isLt⟩ : Fin 128) :=
    funext fun a => match a with
      | ⟨0, _⟩ => rfl
      | ⟨1, _⟩ => rfl
  have he : ((cfg0.win 6).blk t).view.emb y = ix2 (⟨t.val * 2000 + (y 0).val, row_lt t ⟨(y 0).val, (y 0).isLt⟩⟩ : Fin 50000) (⟨(y 1).val, (y 1).isLt⟩ : Fin 128) := by
    funext a; apply Fin.ext
    match a with
    | ⟨0, _⟩ => show win0_6.index t (0 : Fin 2) * 2000 + 1 * (y 0).val = t.val * 2000 + (y 0).val; omega
    | ⟨1, _⟩ => show win0_6.index t (1 : Fin 2) * 128 + 1 * (y 1).val = (y 1).val; omega
  show k0_pay5 (F := Ideal) (iblk0 V c 0 t) (iblk0 V c 1 t) (iblk0 V c 2 t) ((cfg0.win 6).xinj (grid0.coords t) y) = Spec.projN (V c main_arg0) W b (((cfg0.win 6).blk t).view.emb y)
  rw [hy, he, pay5_apply]
  exact point_eq 384 (by omega) (V c main_arg0) (V c main_v0) (V c main_v2) W b hW hb (iblk0 V c 0 t) (iblk0 V c 1 t) (iblk0 V c 2 t) _ _
    (fun k => nodesBlk_apply V c t _ k) (fun k q => wgtBlk_apply V c t k q) (fun q => biasBlk_apply V c t q) _

/-- A row of result 3 is in point `t`'s block iff it is one of rows `2000 t .. 2000 t + 1999`. -/
theorem memBlk0_6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v3_3).slice (win0_6.rect t)).set ↔ _
  rw [View.set_slice_whole, Rect.mem_set_unit]
  exact Iff.rfl

/-- Every row of result 3 is written back by the point its block of 2000 rows belongs to. -/
theorem covered0_6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, Nat.lt_of_lt_of_eq (by omega) N_0.symm⟩, rfl⟩
  obtain ⟨-, -, -, -, -, -, -, -, -, -, -, -, e12, e13⟩ := blockIdx0 t
  refine ⟨t, flush0_6 t, ?_⟩
  rw [memBlk0_6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

theorem final0_6 (c : Dev nD) (W : Spec.Wgt Ideal) (b : Spec.Bias Ideal)
    (hW : ∀ k q : Fin 128, (V c main_v0 : (⟨S128x512, .f32⟩ : BufTy).Contents (Elt Ideal)) (ix2 k (⟨q.val + 384, by omega⟩ : Fin 512)) = W (ix2 k q))
    (hb : ∀ q : Fin 128, (V c main_v2 : (⟨S1x512, .f32⟩ : BufTy).Contents (Elt Ideal)) (ix2 (0 : Fin 1) (⟨q.val + 384, by omega⟩ : Fin 512)) = b (ix1 q)) :
    (dat0 (F := Ideal) V c).arrAt 6 cfg0.N = Spec.projN (V c main_arg0) W b := by
  exact (dat0 (F := Ideal) V c).arrAt_eq_of_cover 6 (Spec.projN (V c main_arg0) W b) (fun t _ => wroteBack0_6 V c W b hW hb t) covered0_6

end Cert.KernelIdeal.Hand

end
-- ==== Proof.KIValue1.lean ====
import proofs.«411699_j69269232550020_3_alg».proof.Proof.KIRegion0
import proofs.«411699_j69269232550020_3_alg».proof.Proof.KIRegion1
import proofs.«411699_j69269232550020_3_alg».proof.Proof.KIRegion2
import proofs.«411699_j69269232550020_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # What call 1 leaves in its two result arrays

With `z` the gate's argument (the edge projection plus the two gathered node projections the call is handed):
the new edge features `e + max z 0`, and the 256-wide pair `σ(z) · B | σ(z)` with `B` the third gathered projection. -/

/-! ## The two matrix products, entry by entry

Both the block product of the call (2000 rows at a time) and the whole-array product of the target contract the second
axis of the left factor with the first of the right one; entry `(r, q)` of either is `∑ₖ left (r, k) · right (k, q)`. -/

theorem edgeBlkDotL_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem edgeBlkDotL_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem edgeBlkDotR_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem edgeBlkDotR_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at entry `(p, q)` of the block. -/
theorem edgeBlkDot_apply (x0 : FVec Ideal S2000x128 .bf16) (x4 : FVec Ideal S128x128 .bf16) (p : Fin 2000) (q : Fin 128) :
    FloatOps.matmul dot_S2000x128_S128x128_S2000x128_1_0_0_1_n_n none x0 x4 (constant (F := Ideal) S2000x128 .f32 0x00000000#32) (ix2 p q)
      = ∑ k : Fin 128, x0 (ix2 p k) * x4 (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact edgeBlkDotL_0 _ _
    | ⟨1, _⟩ => exact (edgeBlkDotL_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (edgeBlkDotR_0 _ _).trans hk
    | ⟨1, _⟩ => exact edgeBlkDotR_1 _ _)
  rw [el, er]

theorem edgeDotL_0 (i : S800000x128.Idx) (q : Cert.ReferenceIdeal.dot_S800000x128_S128x128_S800000x128_1_0_0_1_n_n.contr.Idx) :
    (Cert.ReferenceIdeal.dot_S800000x128_S128x128_S800000x128_1_0_0_1_n_n.lhsIdx i q 0).val = (i 0).val := by
  unfold DotDims.lhsIdx
  rw [dif_neg (show ¬(0 : Fin S800000x128.rank) ∈ Cert.ReferenceIdeal.dot_S800000x128_S128x128_S800000x128_1_0_0_1_n_n.lhsBatch by decide), dif_pos (show (0 : Fin S800000x128.rank) ∈ Cert.ReferenceIdeal.dot_S800000x128_S128x128_S800000x128_1_0_0_1_n_n.lhsNonContracting by decide)]
  rfl
theorem edgeDotL_1 (i : S800000x128.Idx) (q : Cert.ReferenceIdeal.dot_S800000x128_S128x128_S800000x128_1_0_0_1_n_n.contr.Idx) :
    (Cert.ReferenceIdeal.dot_S800000x128_S128x128_S800000x128_1_0_0_1_n_n.lhsIdx i q 1).val = (q ⟨0, by decide⟩).val :=
  Cert.ReferenceIdeal.dot_S800000x128_S128x128_S800000x128_1_0_0_1_n_n.lhsIdx_val_of_single rfl i q
theorem edgeDotR_0 (i : S800000x128.Idx) (q : Cert.ReferenceIdeal.dot_S800000x128_S128x128_S800000x128_1_0_0_1_n_n.contr.Idx) :
    (Cert.ReferenceIdeal.dot_S800000x128_S128x128_S800000x128_1_0_0_1_n_n.rhsIdx i q 0).val = (q ⟨0, by decide⟩).val :=
  Cert.ReferenceIdeal.dot_S800000x128_S128x128_S800000x128_1_0_0_1_n_n.rhsIdx_val_of_single rfl i q
theorem edgeDotR_1 (i : S800000x128.Idx) (q : Cert.ReferenceIdeal.dot_S800000x128_S128x128_S800000x128_1_0_0_1_n_n.contr.Idx) :
    (Cert.ReferenceIdeal.dot_S800000x128_S128x128_S800000x128_1_0_0_1_n_n.rhsIdx i q 1).val = (i 1).val := by
  unfold DotDims.rhsIdx
  rw [dif_neg (show ¬(1 : Fin S128x128.rank) ∈ Cert.ReferenceIdeal.dot_S800000x128_S128x128_S800000x128_1_0_0_1_n_n.rhsBatch by decide), dif_pos (show (1 : Fin S128x128.rank) ∈ Cert.ReferenceIdeal.dot_S800000x128_S128x128_S800000x128_1_0_0_1_n_n.rhsNonContracting by decide)]
  rfl

/-- The whole-array product at entry `(r, q)`. -/
theorem edgeDot_apply (e : FVec Ideal Cert.ReferenceIdeal.S800000x128 .f32) (W : FVec Ideal Cert.ReferenceIdeal.S128x128 .f32) (r : Fin 800000) (q : Fin 128) :
    Host.dotGeneral (F := Ideal) Cert.ReferenceIdeal.dot_S800000x128_S128x128_S800000x128_1_0_0_1_n_n none e W (ix2 r q)
      = ∑ k : Fin 128, e (ix2 r k) * W (ix2 k q) := by
  simp only [Host.dotGeneral]
  rw [Ideal.dotGeneral_apply, ← Equiv.sum_comp (contrEquiv1 Cert.ReferenceIdeal.dot_S800000x128_S128x128_S800000x128_1_0_0_1_n_n 128 rfl rfl).symm]
  refine Finset.sum_congr rfl fun k _ => ?_
  have hk := contrEquiv1_symm_val Cert.ReferenceIdeal.dot_S800000x128_S128x128_S800000x128_1_0_0_1_n_n 128 rfl rfl k
  have el : Cert.ReferenceIdeal.dot_S800000x128_S128x128_S800000x128_1_0_0_1_n_n.lhsIdx (ix2 r q) ((contrEquiv1 Cert.ReferenceIdeal.dot_S800000x128_S128x128_S800000x128_1_0_0_1_n_n 128 rfl rfl).symm k) = ix2 r k := funext fun a => Fin.ext (by
    match a with
    | ⟨0, _⟩ => exact edgeDotL_0 _ _
    | ⟨1, _⟩ => exact (edgeDotL_1 _ _).trans hk)
  have er : Cert.ReferenceIdeal.dot_S800000x128_S128x128_S800000x128_1_0_0_1_n_n.rhsIdx (ix2 r q) ((contrEquiv1 Cert.ReferenceIdeal.dot_S800000x128_S128x128_S800000x128_1_0_0_1_n_n 128 rfl rfl).symm k) = ix2 k q := funext fun a => Fin.ext (by
    match a with
    | ⟨0, _⟩ => exact (edgeDotR_0 _ _).trans hk
    | ⟨1, _⟩ => exact edgeDotR_1 _ _)
  rw [el, er]

/-! ## The gate's argument, entry by entry -/

/-- Entry `(r, q)` of the gate's argument: `∑ₖ e (r, k) · W (k, q) + b q` plus the two gathered projections there. -/
def edgeZAt (e : Spec.EdgeArr Ideal) (W : Spec.Wgt Ideal) (bC : Spec.Bias Ideal) (D E : Spec.EdgeArr Ideal) (r : Fin 800000) (q : Fin 128) : Ideal .f32 :=
  (((∑ k : Fin 128, e (ix2 r k) * W (ix2 k q)) + bC (ix1 q)) + D (ix2 r q)) + E (ix2 r q)

/-- The bias, spread over the rows, reads the bias at the column. -/
theorem edgeBias_apply (h1 : Cert.ReferenceIdeal.S1x128.BroadcastsInDim Cert.ReferenceIdeal.S800000x128 ![0, 1]) (h2 : Cert.ReferenceIdeal.S128.BroadcastsInDim Cert.ReferenceIdeal.S1x128 ![1])
    (bC : Spec.Bias Ideal) (r : Fin 800000) (q : Fin 128) :
    broadcastInDim Cert.ReferenceIdeal.S800000x128 ![0, 1] h1 (broadcastInDim Cert.ReferenceIdeal.S1x128 ![1] h2 bC) (ix2 r q) = bC (ix1 q) :=
  (broadcastInDim_apply _ h1 (broadcastInDim Cert.ReferenceIdeal.S1x128 ![1] h2 bC) (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans
  (broadcastInDim_apply _ h2 bC (ix2 (0 : Fin 1) q) (ix1 q) (fun a => match a with
    | ⟨0, _⟩ => by show q.val = if (128 : Nat) = 1 then 0 else q.val; rw [if_neg (by decide)]))

/-- The target's gate argument is `edgeZAt` at every entry. -/
theorem edgeGateArg_apply (e : Spec.EdgeArr Ideal) (W : Spec.Wgt Ideal) (bC : Spec.Bias Ideal) (D E : Spec.EdgeArr Ideal) (r : Fin 800000) (q : Fin 128) :
    Spec.gateArg (Spec.projE e W bC) D E (ix2 r q) = edgeZAt e W bC D E r q := by
  unfold Spec.gateArg Spec.projE edgeZAt
  rw [addf_apply, addf_apply, addf_apply, edgeDot_apply, edgeBias_apply]

/-! ## The call's block arithmetic, entry by entry -/

/-- Entry `(p, q)` of the gate's argument on a block: the block product (the narrowing to bf16 is the identity on the
    ideal values) plus the bias row plus the two gathered blocks. -/
theorem edgePay1_apply (x0 x1 x2 : Vec Ideal S2000x128 .f32) (x4 : Vec Ideal S128x128 .f32) (x5 : Vec Ideal S1x128 .f32) (p : Fin 2000) (q : Fin 128) :
    k1_pay1 x0 x4 x5 x1 x2 (ix2 p q) = (((∑ k : Fin 128, x0 (ix2 p k) * x4 (ix2 k q)) + x5 (ix2 (0 : Fin 1) q)) + x1 (ix2 p q)) + x2 (ix2 p q) := by
  unfold k1_pay1
  rw [addf_apply, addf_apply, addf_apply, shapeCast_self, shapeCast_self, shapeCast_self]
  rw [show broadcastTo S2000x128 x5 broadcasts_S1x128_S2000x128 (ix2 p q) = x5 (ix2 (0 : Fin 1) q) from
    broadcastTo_apply x5 _ (ix2 p q) (ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])]
  simp only [matmul]
  rw [edgeBlkDot_apply]
  rfl

/-- The gate on a block, at an entry. -/
theorem edgePay2_apply (x0 x1 x2 : Vec Ideal S2000x128 .f32) (x4 : Vec Ideal S128x128 .f32) (x5 : Vec Ideal S1x128 .f32) (p : Fin 2000) (q : Fin 128) :
    k1_pay2 x0 x4 x5 x1 x2 (ix2 p q) = Ideal.logistic (k1_pay1 x0 x4 x5 x1 x2 (ix2 p q)) := rfl

/-- The gate times the third gathered block, at an entry. -/
theorem edgePay3_apply (x0 x1 x2 x3 : Vec Ideal S2000x128 .f32) (x4 : Vec Ideal S128x128 .f32) (x5 : Vec Ideal S1x128 .f32) (p : Fin 2000) (q : Fin 128) :
    k1_pay3 x0 x4 x5 x1 x2 x3 (ix2 p q) = Ideal.logistic (k1_pay1 x0 x4 x5 x1 x2 (ix2 p q)) * x3 (ix2 p q) := by
  unfold k1_pay3
  rw [mulf_apply, shapeCast_self, edgePay2_apply]

/-- The new edge features on a block, at an entry. -/
theorem edgePay4_apply (x0 x1 x2 : Vec Ideal S2000x128 .f32) (x4 : Vec Ideal S128x128 .f32) (x5 : Vec Ideal S1x128 .f32) (p : Fin 2000) (q : Fin 128) :
    k1_pay4 x0 x4 x5 x1 x2 (ix2 p q) = x0 (ix2 p q) + max (k1_pay1 x0 x4 x5 x1 x2 (ix2 p q)) 0 := by
  unfold k1_pay4
  rw [addf_apply, maximumf_apply, broadcast_apply]
  show x0 (ix2 p q) + max (k1_pay1 x0 x4 x5 x1 x2 (ix2 p q)) (Ideal.ofBits .f32 0x00000000#32) = _
  rw [Ideal.ofBits_zero_f32]

/-! ## The target's pointwise layers, entry by entry -/

/-- The pattern of the number one. -/
theorem edgeOne_f32 : Ideal.ofBits .f32 0x3F800000#32 = 1 := by
  rw [show (1 : EReal) = ((1 : ℝ) : EReal) by norm_cast]
  simp [Ideal.ofBits, Ideal.ieee, -EReal.coe_mul]; norm_num

/-- The target's gate `1 / (1 + exp (−z))` is the logistic function of `z`, entry by entry. -/
theorem edgeSigm_apply (z : Spec.EdgeArr Ideal) (i : Cert.ReferenceIdeal.S800000x128.Idx) :
    Spec.sigm z i = Ideal.logistic (z i) := by
  unfold Spec.sigm
  show Ideal.div (Ideal.ofBits .f32 0x3F800000#32) (Ideal.ofBits .f32 0x3F800000#32 + Ideal.exp (-(z i))) = _
  rw [edgeOne_f32]
  rfl

/-- The target's new edge features, entry by entry. -/
theorem edgeOut_apply (e z : Spec.EdgeArr Ideal) (i : Cert.ReferenceIdeal.S800000x128.Idx) :
    Spec.edgeOut e z i = e i + max (z i) 0 := by
  unfold Spec.edgeOut
  show e i + max (z i) (Ideal.ofBits .f32 0x00000000#32) = _
  rw [Ideal.ofBits_zero_f32]

/-! ## A block of the call against the target on the rows it stands for

The block's row `p` stands for row `ρ p` of the arrays; the weight and the bias are whole. -/

section Blocks

variable (x0 x1 x2 x3 : Vec Ideal S2000x128 .f32) (x4 : Vec Ideal S128x128 .f32) (x5 : Vec Ideal S1x128 .f32)
  (e D E B : Spec.EdgeArr Ideal) (W : Spec.Wgt Ideal) (bC : Spec.Bias Ideal) (ρ : Fin 2000 → Fin 800000)
  (h0 : ∀ p k, x0 (ix2 p k) = e (ix2 (ρ p) k)) (h1 : ∀ p q, x1 (ix2 p q) = D (ix2 (ρ p) q)) (h2 : ∀ p q, x2 (ix2 p q) = E (ix2 (ρ p) q))
  (h3 : ∀ p q, x3 (ix2 p q) = B (ix2 (ρ p) q))
  (h4 : ∀ k q, x4 (ix2 k q) = W (ix2 k q)) (h5 : ∀ q, x5 (ix2 (0 : Fin 1) q) = bC (ix1 q))

include h0 h1 h2 h4 h5 in
theorem edgeZ_blk (p : Fin 2000) (q : Fin 128) : k1_pay1 x0 x4 x5 x1 x2 (ix2 p q) = edgeZAt e W bC D E (ρ p) q := by
  rw [edgePay1_apply]; unfold edgeZAt
  rw [h1, h2, h5]
  exact congrArg (fun s => s + bC (ix1 q) + D (ix2 (ρ p) q) + E (ix2 (ρ p) q)) (Finset.sum_congr rfl fun k _ => by rw [h0, h4])

include h0 h1 h2 h4 h5 in
theorem edgeOut_blk (p : Fin 2000) (q : Fin 128) :
    k1_pay4 x0 x4 x5 x1 x2 (ix2 p q) = Spec.edgeOut e (Spec.gateArg (Spec.projE e W bC) D E) (ix2 (ρ p) q) := by
  rw [edgePay4_apply, edgeOut_apply, edgeGateArg_apply, edgeZ_blk x0 x1 x2 x4 x5 e D E W bC ρ h0 h1 h2 h4 h5, h0]

include h0 h1 h2 h4 h5 in
theorem edgeGate_blk (p : Fin 2000) (q : Fin 128) :
    k1_pay2 x0 x4 x5 x1 x2 (ix2 p q) = Spec.sigm (Spec.gateArg (Spec.projE e W bC) D E) (ix2 (ρ p) q) := by
  rw [edgePay2_apply, edgeSigm_apply, edgeGateArg_apply, edgeZ_blk x0 x1 x2 x4 x5 e D E W bC ρ h0 h1 h2 h4 h5]

include h0 h1 h2 h3 h4 h5 in
theorem edgeGated_blk (p : Fin 2000) (q : Fin 128) :
    k1_pay3 x0 x4 x5 x1 x2 x3 (ix2 p q) = mulf (Spec.sigm (Spec.gateArg (Spec.projE e W bC) D E)) B (ix2 (ρ p) q) := by
  rw [edgePay3_apply, mulf_apply, edgeSigm_apply, edgeGateArg_apply, edgeZ_blk x0 x1 x2 x4 x5 e D E W bC ρ h0 h1 h2 h4 h5, h3]

end Blocks

/-- The two half-width stores of the 256-wide buffer read back as the pair: columns below 128 from the left piece,
    the others from the right one. -/
theorem edgePair_blk (P2 P3 : Vec Ideal S2000x128 .f32) (L R : Spec.EdgeArr Ideal) (ρ : Fin 2000 → Fin 800000)
    (hL : ∀ p q, P3 (ix2 p q) = L (ix2 (ρ p) q)) (hR : ∀ p q, P2 (ix2 p q) = R (ix2 (ρ p) q)) (p : Fin 2000) (j : Fin 256) :
    View.canon [(⟨r1_4, P2⟩ : View.Piece (Elt Ideal) S2000x256 .f32), ⟨r1_3, P3⟩] (ix2 p j) = Spec.pair256 L R (ix2 (ρ p) j) := by
  have hj : j.val < 256 := j.isLt
  by_cases h : j.val < 128
  · have hnot : ix2 p j ∉ (r1_4 : Rect S2000x256).set := fun hm => by
      have h1 := (Rect.mem_set_unit.mp hm) 1
      have h1' : 128 ≤ j.val ∧ j.val < 128 + 128 := h1
      omega
    rw [View.canon_cons_of_not_mem (⟨r1_4, P2⟩ : View.Piece (Elt Ideal) S2000x256 .f32) [⟨r1_3, P3⟩] hnot]
    have he : ix2 p j = (r1_3 : Rect S2000x256).emb (ix2 p (⟨j.val, h⟩ : Fin 128)) := funext fun a => Fin.ext (by
      match a with
      | ⟨0, _⟩ => show p.val = 0 + 1 * p.val; omega
      | ⟨1, _⟩ => show j.val = 0 + 1 * j.val; omega)
    rw [he, View.canon_cons_emb]
    unfold Spec.pair256
    rw [dif_pos (show ((ix2 (ρ p) j : (⟨2, ![800000, 256]⟩ : Shape).Idx) 1).val < 128 from h)]
    exact hL p ⟨j.val, h⟩
  · have he : ix2 p j = (r1_4 : Rect S2000x256).emb (ix2 p (⟨j.val - 128, by omega⟩ : Fin 128)) := funext fun a => Fin.ext (by
      match a with
      | ⟨0, _⟩ => show p.val = 0 + 1 * p.val; omega
      | ⟨1, _⟩ => show j.val = 128 + 1 * (j.val - 128); omega)
    rw [he, View.canon_cons_emb]
    unfold Spec.pair256
    rw [dif_neg (show ¬((ix2 (ρ p) j : (⟨2, ![800000, 256]⟩ : Shape).Idx) 1).val < 128 from h)]
    exact hR p ⟨j.val - 128, by omega⟩

/-! ## The call's blocks in the arrays

At point `t` the four edge-sized inputs and the two results are at block `(t, 0)` of 2000 rows, the weight and the
bias at block `(0, 0)`: the block's row `p` is row `2000 t + p` of the array. -/

theorem edgeOrigin2 : (![0, 0] : Fin 2 → Nat) = fun _ => 0 := funext fun a => by fin_cases a <;> rfl

/-- The call's block index maps at every point of the grid. -/
theorem edgeIdx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-- Row `p` of the block at point `t`, as a row of the arrays. -/
def edgeRowOf (t : Fin cfg1.N) (p : Fin 2000) : Fin 800000 :=
  ⟨2000 * t.val + p.val, by have ht : t.val < 400 := t.isLt; have hp := p.isLt; omega⟩

theorem edgeBlk_0_apply (c : Dev nD) (t : Fin cfg1.N) (p : Fin 2000) (q : Fin 128) :
    iblk1 V c 0 t (ix2 p q) = (V c main_arg1 : Spec.EdgeArr Ideal) (ix2 (edgeRowOf t p) q) := by
  obtain ⟨⟨e0, e1⟩, -⟩ := edgeIdx_facts t
  show V c main_arg1 (((cfg1.win 0).blk t).view.emb (ix2 p q)) = _
  refine congrArg (V c main_arg1) (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * q.val = q.val; omega

theorem edgeBlk_1_apply (c : Dev nD) (t : Fin cfg1.N) (p : Fin 2000) (q : Fin 128) :
    iblk1 V c 1 t (ix2 p q) = (V c main_v11 : Spec.EdgeArr Ideal) (ix2 (edgeRowOf t p) q) := by
  obtain ⟨-, ⟨e0, e1⟩, -⟩ := edgeIdx_facts t
  show V c main_v11 (((cfg1.win 1).blk t).view.emb (ix2 p q)) = _
  refine congrArg (V c main_v11) (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * q.val = q.val; omega

theorem edgeBlk_2_apply (c : Dev nD) (t : Fin cfg1.N) (p : Fin 2000) (q : Fin 128) :
    iblk1 V c 2 t (ix2 p q) = (V c main_v18 : Spec.EdgeArr Ideal) (ix2 (edgeRowOf t p) q) := by
  obtain ⟨-, -, ⟨e0, e1⟩, -⟩ := edgeIdx_facts t
  show V c main_v18 (((cfg1.win 2).blk t).view.emb (ix2 p q)) = _
  refine congrArg (V c main_v18) (funext fun a => Fin.ext ?_)
  match a with
  | ⟨0, _⟩ => show win1_2.index t (0 : Fin 2) * 2000 + 1 * p.val = 2000 * t.val + p.val; omega
  | ⟨1, _⟩ => show win1_2.index t (1 : Fin 2) * 128 + 1 * q.val = q.val; omega

theorem edgeBlk_3_apply (c : Dev nD) (t : Fin cfg1.N) (p : Fin 2000) (q : Fin 128) :
    iblk1 V c 3 t (ix2 p q) = (V c main_v25 : Spec.EdgeArr Ideal) (ix2 (edgeRowOf t p) q) := by
  obtain ⟨-, -, -, ⟨e0, e1⟩, -⟩ := edgeIdx_facts t
  show V c main_v25 (((cfg1.win 3).blk t).view.emb (ix2 p q)) = _
  refine congrArg (V c main_v25) (funext fun a => Fin.ext ?_)
  match a with
  | ⟨0, _⟩ => show win1_3.index t (0 : Fin 2) * 2000 + 1 * p.val = 2000 * t.val + p.val; omega
  | ⟨1, _⟩ => show win1_3.index t (1 : Fin 2) * 128 + 1 * q.val = q.val; omega

/-- The weight's block is the whole weight. -/
theorem edgeBlk_4_apply (c : Dev nD) (t : Fin cfg1.N) (k q : Fin 128) :
    iblk1 V c 4 t (ix2 k q) = (V c main_arg8 : Spec.Wgt Ideal) (ix2 k q) := by
  obtain ⟨-, -, -, -, ⟨e0, e1⟩, -⟩ := edgeIdx_facts t
  show V c main_arg8 (((cfg1.win 4).blk t).view.emb (ix2 k q)) = _
  refine congrArg (V c main_arg8) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- The bias's block is the whole one-row bias. -/
theorem edgeBlk_5_apply (c : Dev nD) (t : Fin cfg1.N) (q : Fin 128) :
    iblk1 V c 5 t (ix2 (0 : Fin 1) q) = (V c main_v4 : (⟨S1x128, .f32⟩ : BufTy).Contents (Elt Ideal)) (ix2 (0 : Fin 1) q) := by
  obtain ⟨-, -, -, -, -, ⟨e0, e1⟩, -⟩ := edgeIdx_facts t
  show V c main_v4 (((cfg1.win 5).blk t).view.emb (ix2 (0 : Fin 1) q)) = _
  refine congrArg (V c main_v4) (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- Where entry `(p, q)` of the block of point `t` sits in the new edge features, -/
theorem edgeEmb_6 (t : Fin cfg1.N) (p : Fin 2000) (q : Fin 128) :
    ((cfg1.win 6).blk t).view.emb (ix2 p q) = (ix2 (edgeRowOf t p) q : S800000x128.Idx) := by
  obtain ⟨-, -, -, -, -, -, ⟨e0, e1⟩, -⟩ := edgeIdx_facts t
  refine funext fun a => Fin.ext ?_
  match a with
  | ⟨0, _⟩ => show win1_6.index t (0 : Fin 2) * 2000 + 1 * p.val = 2000 * t.val + p.val; omega
  | ⟨1, _⟩ => show win1_6.index t (1 : Fin 2) * 128 + 1 * q.val = q.val; omega

/-- and entry `(p, j)` in the 256-wide pair. -/
theorem edgeEmb_7 (t : Fin cfg1.N) (p : Fin 2000) (j : Fin 256) :
    ((cfg1.win 7).blk t).view.emb (ix2 p j) = (ix2 (edgeRowOf t p) j : S800000x256.Idx) := by
  obtain ⟨-, -, -, -, -, -, -, ⟨e0, e1⟩⟩ := edgeIdx_facts t
  refine funext fun a => Fin.ext ?_
  match a with
  | ⟨0, _⟩ => show win1_7.index t (0 : Fin 2) * 2000 + 1 * p.val = 2000 * t.val + p.val; omega
  | ⟨1, _⟩ => show win1_7.index t (1 : Fin 2) * 256 + 1 * j.val = j.val; omega

/-! ## What each point writes back -/

/-- Point `t` writes block `t` of the new edge features. -/
theorem edgeFlushed_6 (c : Dev nD) (bC : Spec.Bias Ideal)
    (hb : ∀ q : Fin 128, (V c main_v4 : (⟨S1x128, .f32⟩ : BufTy).Contents (Elt Ideal)) (ix2 (0 : Fin 1) q) = bC (ix1 q)) (t : Fin cfg1.N) :
    (dat1 (F := Ideal) V c).flushed 6 t = ((cfg1.win 6).blk t).view.read (Elt Ideal)
      (Spec.edgeOut (V c main_arg1) (Spec.gateArg (Spec.projE (V c main_arg1) (V c main_arg8) bC) (V c main_v11) (V c main_v18))) := by
  show (cfg1.win 6).cut (grid1.coords t) ((dat1 V c).after 6 t) = _
  rw [after1_6]
  unfold out1_6
  rw [View.canon_unit_zero edgeOrigin2]
  simp only [View.ld_unit_zero (S := S2000x128) edgeOrigin2, View.ld_unit_zero (S := S128x128) edgeOrigin2, View.ld_unit_zero (S := S1x128) edgeOrigin2]
  funext y
  obtain ⟨p, q, rfl⟩ : ∃ (p : Fin 2000) (q : Fin 128), y = ix2 p q := ⟨y 0, y 1, eq_ix2 (n0 := 2000) (n1 := 128) y⟩
  show k1_pay4 (iblk1 V c 0 t) (iblk1 V c 4 t) (iblk1 V c 5 t) (iblk1 V c 1 t) (iblk1 V c 2 t) (ix2 p q)
    = Spec.edgeOut (V c main_arg1) (Spec.gateArg (Spec.projE (V c main_arg1) (V c main_arg8) bC) (V c main_v11) (V c main_v18)) (((cfg1.win 6).blk t).view.emb (ix2 p q))
  rw [edgeEmb_6 t p q]
  exact edgeOut_blk (iblk1 V c 0 t) (iblk1 V c 1 t) (iblk1 V c 2 t) (iblk1 V c 4 t) (iblk1 V c 5 t)
    (V c main_arg1) (V c main_v11) (V c main_v18) (V c main_arg8) bC (edgeRowOf t)
    (edgeBlk_0_apply V c t) (edgeBlk_1_apply V c t) (edgeBlk_2_apply V c t) (edgeBlk_4_apply V c t)
    (fun q => (edgeBlk_5_apply V c t q).trans (hb q)) p q

/-- Point `t` writes block `t` of the 256-wide pair. -/
theorem edgeFlushed_7 (c : Dev nD) (bC : Spec.Bias Ideal)
    (hb : ∀ q : Fin 128, (V c main_v4 : (⟨S1x128, .f32⟩ : BufTy).Contents (Elt Ideal)) (ix2 (0 : Fin 1) q) = bC (ix1 q)) (t : Fin cfg1.N) :
    (dat1 (F := Ideal) V c).flushed 7 t = ((cfg1.win 7).blk t).view.read (Elt Ideal)
      (Spec.pair256
        (mulf (Spec.sigm (Spec.gateArg (Spec.projE (V c main_arg1) (V c main_arg8) bC) (V c main_v11) (V c main_v18))) (V c main_v25))
        (Spec.sigm (Spec.gateArg (Spec.projE (V c main_arg1) (V c main_arg8) bC) (V c main_v11) (V c main_v18)))) := by
  show (cfg1.win 7).cut (grid1.coords t) ((dat1 V c).after 7 t) = _
  rw [after1_7]
  unfold out1_7
  simp only [View.ld_unit_zero (S := S2000x128) edgeOrigin2, View.ld_unit_zero (S := S128x128) edgeOrigin2, View.ld_unit_zero (S := S1x128) edgeOrigin2]
  funext y
  obtain ⟨p, j, rfl⟩ : ∃ (p : Fin 2000) (j : Fin 256), y = ix2 p j := ⟨y 0, y 1, eq_ix2 (n0 := 2000) (n1 := 256) y⟩
  show View.canon [(⟨r1_4, k1_pay2 (iblk1 V c 0 t) (iblk1 V c 4 t) (iblk1 V c 5 t) (iblk1 V c 1 t) (iblk1 V c 2 t)⟩ : View.Piece (Elt Ideal) S2000x256 .f32),
      ⟨r1_3, k1_pay3 (iblk1 V c 0 t) (iblk1 V c 4 t) (iblk1 V c 5 t) (iblk1 V c 1 t) (iblk1 V c 2 t) (iblk1 V c 3 t)⟩] (ix2 p j)
    = Spec.pair256
        (mulf (Spec.sigm (Spec.gateArg (Spec.projE (V c main_arg1) (V c main_arg8) bC) (V c main_v11) (V c main_v18))) (V c main_v25))
        (Spec.sigm (Spec.gateArg (Spec.projE (V c main_arg1) (V c main_arg8) bC) (V c main_v11) (V c main_v18)))
        (((cfg1.win 7).blk t).view.emb (ix2 p j))
  rw [edgeEmb_7 t p j]
  exact edgePair_blk _ _ _ _ (edgeRowOf t)
    (edgeGated_blk (iblk1 V c 0 t) (iblk1 V c 1 t) (iblk1 V c 2 t) (iblk1 V c 3 t) (iblk1 V c 4 t) (iblk1 V c 5 t)
      (V c main_arg1) (V c main_v11) (V c main_v18) (V c main_v25) (V c main_arg8) bC (edgeRowOf t)
      (edgeBlk_0_apply V c t) (edgeBlk_1_apply V c t) (edgeBlk_2_apply V c t) (edgeBlk_3_apply V c t) (edgeBlk_4_apply V c t)
      (fun q => (edgeBlk_5_apply V c t q).trans (hb q)))
    (edgeGate_blk (iblk1 V c 0 t) (iblk1 V c 1 t) (iblk1 V c 2 t) (iblk1 V c 4 t) (iblk1 V c 5 t)
      (V c main_arg1) (V c main_v11) (V c main_v18) (V c main_arg8) bC (edgeRowOf t)
      (edgeBlk_0_apply V c t) (edgeBlk_1_apply V c t) (edgeBlk_2_apply V c t) (edgeBlk_4_apply V c t)
      (fun q => (edgeBlk_5_apply V c t q).trans (hb q)))
    p j

/-! ## The blocks fill the arrays -/

/-- An index of the new edge features is in point `t`'s block iff each coordinate is in the block's range on its axis. -/
theorem edgeMem_blk_6 (t : Fin cfg1.N) (i : S800000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v26_0).slice (win1_6.rect t)).set ↔ _
  rw [View.set_slice_whole, Rect.mem_set_unit]
  exact Iff.rfl

theorem edgeMem_blk_7 (t : Fin cfg1.N) (i : S800000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v26_1).slice (win1_7.rect t)).set ↔ _
  rw [View.set_slice_whole, Rect.mem_set_unit]
  exact Iff.rfl

/-- Row `r` is in the block of point `r / 2000`. -/
theorem edgeCovered_6 (i : S800000x128.Idx) :
    ∃ t : Fin cfg1.N, (cfg1.win 6).flush t = true ∧ i ∈ ((cfg1.win 6).blk t).view.set := by
  have hi0 : (i 0).val < 800000 := (i 0).isLt
  have hi1 : (i 1).val < 128 := (i 1).isLt
  have hlt : (i 0).val / 2000 < 400 := by omega
  obtain ⟨-, -, -, -, -, -, ⟨e0, e1⟩, -⟩ := edgeIdx_facts (⟨(i 0).val / 2000, hlt⟩ : Fin cfg1.N)
  have e0' : win1_6.index (⟨(i 0).val / 2000, hlt⟩ : Fin cfg1.N) (0 : Fin 2) = (i 0).val / 2000 := e0
  refine ⟨⟨(i 0).val / 2000, hlt⟩, flush1_6 _, ?_⟩
  rw [edgeMem_blk_6]
  intro a
  match a with
  | ⟨0, _⟩ =>
    show win1_6.index (⟨(i 0).val / 2000, hlt⟩ : Fin cfg1.N) (0 : Fin 2) * 2000 ≤ (i 0).val ∧ (i 0).val < win1_6.index (⟨(i 0).val / 2000, hlt⟩ : Fin cfg1.N) (0 : Fin 2) * 2000 + 2000
    omega
  | ⟨1, _⟩ =>
    show win1_6.index (⟨(i 0).val / 2000, hlt⟩ : Fin cfg1.N) (1 : Fin 2) * 128 ≤ (i 1).val ∧ (i 1).val < win1_6.index (⟨(i 0).val / 2000, hlt⟩ : Fin cfg1.N) (1 : Fin 2) * 128 + 128
    omega

theorem edgeCovered_7 (i : S800000x256.Idx) :
    ∃ t : Fin cfg1.N, (cfg1.win 7).flush t = true ∧ i ∈ ((cfg1.win 7).blk t).view.set := by
  have hi0 : (i 0).val < 800000 := (i 0).isLt
  have hi1 : (i 1).val < 256 := (i 1).isLt
  have hlt : (i 0).val / 2000 < 400 := by omega
  obtain ⟨-, -, -, -, -, -, -, ⟨e0, e1⟩⟩ := edgeIdx_facts (⟨(i 0).val / 2000, hlt⟩ : Fin cfg1.N)
  have e0' : win1_7.index (⟨(i 0).val / 2000, hlt⟩ : Fin cfg1.N) (0 : Fin 2) = (i 0).val / 2000 := e0
  refine ⟨⟨(i 0).val / 2000, hlt⟩, flush1_7 _, ?_⟩
  rw [edgeMem_blk_7]
  intro a
  match a with
  | ⟨0, _⟩ =>
    show win1_7.index (⟨(i 0).val / 2000, hlt⟩ : Fin cfg1.N) (0 : Fin 2) * 2000 ≤ (i 0).val ∧ (i 0).val < win1_7.index (⟨(i 0).val / 2000, hlt⟩ : Fin cfg1.N) (0 : Fin 2) * 2000 + 2000
    omega
  | ⟨1, _⟩ =>
    show win1_7.index (⟨(i 0).val / 2000, hlt⟩ : Fin cfg1.N) (1 : Fin 2) * 256 ≤ (i 1).val ∧ (i 1).val < win1_7.index (⟨(i 0).val / 2000, hlt⟩ : Fin cfg1.N) (1 : Fin 2) * 256 + 256
    omega

/-! ## The two result arrays after the call -/

theorem final1_6 (c : Dev nD) (bC : Spec.Bias Ideal)
    (hb : ∀ q : Fin 128, (V c main_v4 : (⟨S1x128, .f32⟩ : BufTy).Contents (Elt Ideal)) (ix2 (0 : Fin 1) q) = bC (ix1 q)) :
    (dat1 (F := Ideal) V c).arrAt 6 cfg1.N
      = Spec.edgeOut (V c main_arg1) (Spec.gateArg (Spec.projE (V c main_arg1) (V c main_arg8) bC) (V c main_v11) (V c main_v18)) :=
  (dat1 (F := Ideal) V c).arrAt_eq_of_cover 6 _ (fun t _ => edgeFlushed_6 V c bC hb t) edgeCovered_6

theorem final1_7 (c : Dev nD) (bC : Spec.Bias Ideal)
    (hb : ∀ q : Fin 128, (V c main_v4 : (⟨S1x128, .f32⟩ : BufTy).Contents (Elt Ideal)) (ix2 (0 : Fin 1) q) = bC (ix1 q)) :
    (dat1 (F := Ideal) V c).arrAt 7 cfg1.N
      = Spec.pair256
          (mulf (Spec.sigm (Spec.gateArg (Spec.projE (V c main_arg1) (V c main_arg8) bC) (V c main_v11) (V c main_v18))) (V c main_v25))
          (Spec.sigm (Spec.gateArg (Spec.projE (V c main_arg1) (V c main_arg8) bC) (V c main_v11) (V c main_v18))) :=
  (dat1 (F := Ideal) V c).arrAt_eq_of_cover 7 _ (fun t _ => edgeFlushed_7 V c bC hb t) edgeCovered_7

end Cert.KernelIdeal.Hand

end
-- ==== Proof.KIValue2.lean ====
import proofs.«411699_j69269232550020_3_alg».proof.Proof.KIRegion0
import proofs.«411699_j69269232550020_3_alg».proof.Proof.KIRegion1
import proofs.«411699_j69269232550020_3_alg».proof.Proof.KIRegion2
import proofs.«411699_j69269232550020_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # What call 2 leaves in its result array: `h + max (Ah + num / (den + ε)) 0`, entry by entry

At point `t` each of the five windows' blocks is rows `2000 t .. 2000 t + 1999` (all 128 columns) of its array, so
the entry the body computes at block position `j` is the node expression at row `2000 t + j₀`, column `j₁`, of the four
input arrays; the 25 blocks tile the 50000 rows. -/

/-- The zero offsets of the whole-buffer rectangle. -/
theorem zero_off2 : (![0, 0] : Fin 2 → Nat) = fun _ => 0 := funext fun a => by fin_cases a <;> rfl

/-- Over the 25 points, every window's block index is `(t, 0)`. -/
theorem blockIdx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0) :=
  (by decide +kernel : ∀ t : Fin grid2.N, _)

/-- The node expression at one entry, over the extended reals. -/
theorem nodeOut_apply (h Ah num den : Spec.NodeArr Ideal) (i : S50000x128.Idx) :
    Spec.nodeOut h Ah num den i
      = h i + max (Ah i + Ideal.div (num i) (den i + Ideal.ofBits .f32 0x358637BD#32)) (Ideal.ofBits .f32 0x00000000#32) := rfl

/-- The body's expression at one entry of the block: the same expression of the four loaded entries. -/
theorem nodePay_apply (v0 v2 v4 v10 : Vec Ideal S2000x128 .f32) (j : S2000x128.Idx) :
    k2_pay1 v0 v2 v4 v10 j
      = v10 j + max (v4 j + Ideal.div (v0 j) (v2 j + Ideal.ofBits .f32 0x358637BD#32)) (Ideal.ofBits .f32 0x00000000#32) := by
  unfold k2_pay1
  simp only [shapeCast_self]
  rfl

/-- What point `t` writes back is block `t` of the node expression of the four input arrays. -/
theorem flushed2_4_eq (c : Dev nD) (t : Fin cfg2.N) :
    (dat2 (F := Ideal) V c).flushed 4 t
      = ((cfg2.win 4).blk t).view.read (Elt Ideal) (Spec.nodeOut (V c main_arg0) (V c main_v3_0) (V c main_v30) (V c main_v31)) := by
  show (cfg2.win 4).cut (grid2.coords t) ((dat2 V c).after 4 t) = _
  rw [after2_4]
  unfold out2_4
  rw [View.canon_unit_zero zero_off2]
  simp only [View.ld_unit_zero (S := S2000x128) zero_off2]
  obtain ⟨⟨a0, b0⟩, ⟨a1, b1⟩, ⟨a2, b2⟩, ⟨a3, b3⟩, ⟨a4, b4⟩⟩ := blockIdx2 t
  funext j
  have h0 : ((cfg2.win 0).blk t).view.emb j = ((cfg2.win 4).blk t).view.emb j := by
    funext a; apply Fin.ext
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * (j 1).val = win2_4.index t (1 : Fin 2) * 128 + 1 * (j 1).val; omega
  have h1 : ((cfg2.win 1).blk t).view.emb j = ((cfg2.win 4).blk t).view.emb j := by
    funext a; apply Fin.ext
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 128 + 1 * (j 1).val = win2_4.index t (1 : Fin 2) * 128 + 1 * (j 1).val; omega
  have h2 : ((cfg2.win 2).blk t).view.emb j = ((cfg2.win 4).blk t).view.emb j := by
    funext a; apply Fin.ext
    match a with
    | ⟨0, _⟩ => show win2_2.index t (0 : Fin 2) * 2000 + 1 * (j 0).val = win2_4.index t (0 : Fin 2) * 2000 + 1 * (j 0).val; omega
    | ⟨1, _⟩ => show win2_2.index t (1 : Fin 2) * 128 + 1 * (j 1).val = win2_4.index t (1 : Fin 2) * 128 + 1 * (j 1).val; omega
  have h3 : ((cfg2.win 3).blk t).view.emb j = ((cfg2.win 4).blk t).view.emb j := by
    funext a; apply Fin.ext
    match a with
    | ⟨0, _⟩ => show win2_3.index t (0 : Fin 2) * 2000 + 1 * (j 0).val = win2_4.index t (0 : Fin 2) * 2000 + 1 * (j 0).val; omega
    | ⟨1, _⟩ => show win2_3.index t (1 : Fin 2) * 128 + 1 * (j 1).val = win2_4.index t (1 : Fin 2) * 128 + 1 * (j 1).val; omega
  have e0 : iblk2 V c 0 t j = V c main_arg0 (((cfg2.win 4).blk t).view.emb j) := congrArg (V c main_arg0) h0
  have e1 : iblk2 V c 1 t j = V c main_v3_0 (((cfg2.win 4).blk t).view.emb j) := congrArg (V c main_v3_0) h1
  have e2 : iblk2 V c 2 t j = V c main_v30 (((cfg2.win 4).blk t).view.emb j) := congrArg (V c main_v30) h2
  have e3 : iblk2 V c 3 t j = V c main_v31 (((cfg2.win 4).blk t).view.emb j) := congrArg (V c main_v31) h3
  show k2_pay1 (iblk2 V c 2 t) (iblk2 V c 3 t) (iblk2 V c 1 t) (iblk2 V c 0 t) j
    = Spec.nodeOut (V c main_arg0) (V c main_v3_0) (V c main_v30) (V c main_v31) (((cfg2.win 4).blk t).view.emb j)
  refine (nodePay_apply _ _ _ _ j).trans ?_
  refine Eq.trans ?_ (nodeOut_apply _ _ _ _ _).symm
  rw [e0, e1, e2, e3]

/-- An entry of the array is in point `t`'s block iff each coordinate is in the block's range on its axis. -/
theorem mem_blk2_4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v32).slice (win2_4.rect t)).set ↔ _
  rw [View.set_slice_whole, Rect.mem_set_unit]
  exact Iff.rfl

/-- Row `r` lies in the block of point `r / 2000`: the 25 blocks cover the array. -/
theorem covered2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, ⟨a4, b4⟩⟩ := blockIdx2 t
  have ht : t.val = (i 0).val / 2000 := rfl
  refine ⟨t, flush2_4 t, ?_⟩
  rw [mem_blk2_4]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

theorem final2_4 (c : Dev nD) :
    (dat2 (F := Ideal) V c).arrAt 4 cfg2.N = Spec.nodeOut (V c main_arg0) (V c main_v3_0) (V c main_v30) (V c main_v31) :=
  (dat2 (F := Ideal) V c).arrAt_eq_of_cover 4 (Spec.nodeOut (V c main_arg0) (V c main_v3_0) (V c main_v30) (V c main_v31))
    (fun t _ => flushed2_4_eq V c t) covered2_4

end Cert.KernelIdeal.Hand

end
-- ==== Proof.ScatterSplit.lean ====
import proofs.«411699_j69269232550020_3_alg».proof.Proof.Gen.KernelIdeal
import proofs.«411699_j69269232550020_3_alg».proof.Proof.Spec
import Idealize.ShloMosaic.Lib.ValueIdx
import Idealize.ShloMosaic.PureOps.Ideal.Laws

set_option maxRecDepth 16384

/-! # One sum over arriving edges of a 256-wide pair is the pair of the two 128-wide sums

The kernel's program sums the rows of the side-by-side pair `L | R` over the edges arriving at each node in ONE scatter-sum
into a 50000 × 256 array and then cuts its left and right halves; the reference sums `L` and `R` separately. Over the
extended reals a scatter-sum entry is the sum of the update entries landing on it, an update row `e` landing on node
`dst e` (read signed, dropped when outside `0 .. 49999`) in its own column: so column `c < 128` of the wide sum collects
exactly column `c` of `L`, and column `128 + c` exactly column `c` of `R`. -/

noncomputable section

namespace Cert.KernelIdeal.Hand

open Idealize.ShloMosaic Idealize.ShloMosaic.ValueIdx
open Cert.KernelIdeal Cert.KernelIdeal.Gen

/-- An update entry lands on entry `i` iff on every axis its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split_ifs with h
  · rw [Option.some_inj]
    constructor
    · intro e a; have := h a; rw [← e]; show _ = (((d.start j idx a + d.window j a).toNat : Nat) : Int); omega
    · intro e; funext a; apply Fin.ext; show (d.start j idx a + d.window j a).toNat = (i a).val; have := e a; omega
  · constructor
    · intro e; exact absurd e (by simp)
    · intro e; exact absurd (fun a => by have := e a; have := (i a).isLt; constructor <;> omega) h

/-- The dimension numbers of a row scatter: update entry `(e, c)` goes to row `idx (e, 0)`, column `c`, of an
    `n × m` array; `k` update rows. -/
abbrev rowDims (n m k : Nat) (wf : ScatterDims.WF ⟨2, ![n, m]⟩ ⟨2, ![k, 1]⟩ ⟨2, ![k, m]⟩ [1] [0] [0] 1) :
    ScatterDims ⟨2, ![n, m]⟩ ⟨2, ![k, 1]⟩ ⟨2, ![k, m]⟩ where
  updateWindowDims := [1]
  insertedWindowDims := [0]
  scatterDimsToOperandDims := [0]
  indexVectorDim := 1
  wf := wf

section Row
variable {n m k w : Nat} (wf : ScatterDims.WF ⟨2, ![n, m]⟩ ⟨2, ![k, 1]⟩ ⟨2, ![k, m]⟩ [1] [0] [0] 1)
  (j : (⟨2, ![k, m]⟩ : Shape).Idx) (idx : IVec ⟨2, ![k, 1]⟩ w)

/-- On the row axis the window starts at the row number read, signed, at `(e, 0)` … -/
theorem row_start0 : (rowDims n m k wf).start j idx 0 = (idx (ix2 (j 0) (0 : Fin 1))).toInt := by
  unfold ScatterDims.start
  rw [dif_pos (show (0 : Fin 2) ∈ (rowDims n m k wf).scatterDimsToOperandDims from List.mem_singleton.mpr rfl)]
  have hsi : (rowDims n m k wf).siIdx j ⟨List.idxOf (0 : Fin 2) (rowDims n m k wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and on the column axis at `0`; -/
theorem row_start1 : (rowDims n m k wf).start j idx 1 = 0 := by
  unfold ScatterDims.start
  rw [dif_neg (show ¬ (1 : Fin 2) ∈ (rowDims n m k wf).scatterDimsToOperandDims from (by decide : ¬ (1 : Fin 2) ∈ ([0] : List (Fin 2))))]

/-- the window coordinate is `0` on the row axis … -/
theorem row_window0 : (rowDims n m k wf).window j 0 = 0 := by
  unfold ScatterDims.window
  rw [dif_neg (show ¬ (0 : Fin 2) ∈ (rowDims n m k wf).sKept from (by decide : ¬ (0 : Fin 2) ∈ ([1] : List (Fin 2))))]

/-- … and the update entry's own column on the column axis. -/
theorem row_window1 : (rowDims n m k wf).window j 1 = (j 1).val := by
  unfold ScatterDims.window
  rw [dif_pos (show (1 : Fin 2) ∈ (rowDims n m k wf).sKept from (by decide : (1 : Fin 2) ∈ ([1] : List (Fin 2))))]
  rfl

/-- So update entry `j = (e, c)` lands on `i` iff the row number read at `(e, 0)` is `i`'s row and `c` is `i`'s column. -/
theorem row_lands_iff (i : (⟨2, ![n, m]⟩ : Shape).Idx) :
    (rowDims n m k wf).resultIdx? j idx = some i
      ↔ (idx (ix2 (j 0) (0 : Fin 1))).toInt = ((i 0).val : Int) ∧ (j 1).val = (i 1).val := by
  rw [resultIdx?_eq_some_iff]
  have s0 := row_start0 wf j idx
  have s1 := row_start1 wf j idx
  have w0 := row_window0 wf j
  have w1 := row_window1 wf j
  constructor
  · intro h
    have h0 := h 0
    have h1 := h 1
    rw [s0, w0] at h0
    rw [s1, w1] at h1
    constructor <;> omega
  · rintro ⟨h0, h1⟩ a
    match a with
    | ⟨0, _⟩ =>
      have : (rowDims n m k wf).start j idx 0 + (rowDims n m k wf).window j 0 = ((i 0).val : Int) := by rw [s0, w0]; omega
      exact this
    | ⟨1, _⟩ =>
      have : (rowDims n m k wf).start j idx 1 + (rowDims n m k wf).window j 1 = ((i 1).val : Int) := by rw [s1, w1]; omega
      exact this

end Row

open scoped BigOperators in
/-- The host scatter-sum at one entry, over the extended reals: the entry plus the sum of the update entries landing on it. -/
theorem scatterAdd_apply {s si su : Shape} (d : ScatterDims s si su) {w : Nat} (x : FVec Ideal s .f32) (idx : IVec si w)
    (upd : FVec Ideal su .f32) (i : s.Idx) :
    Host.scatterAdd (F := Ideal) d x idx upd i
      = (x i : EReal) + ∑ j ∈ Finset.univ.filter (fun j => d.resultIdx? j idx = some i), (upd j : EReal) := rfl

open scoped BigOperators in
/-- The sum over the update entries landing on column `c + off` of row `r` of the wide array, of a wide update array whose
    columns `off .. off + m - 1` are the narrow one's, is the narrow array's sum over the entries landing on `(r, c)`:
    `(e, c) ↦ (e, c + off)` matches the two sets of update entries. -/
theorem row_split {n m m' k w : Nat} (wf : ScatterDims.WF ⟨2, ![n, m]⟩ ⟨2, ![k, 1]⟩ ⟨2, ![k, m]⟩ [1] [0] [0] 1)
    (wf' : ScatterDims.WF ⟨2, ![n, m']⟩ ⟨2, ![k, 1]⟩ ⟨2, ![k, m']⟩ [1] [0] [0] 1) (off : Nat) (hoff : off + m ≤ m')
    (idx : IVec ⟨2, ![k, 1]⟩ w) (W : (⟨2, ![k, m']⟩ : Shape).Idx → EReal) (U : (⟨2, ![k, m]⟩ : Shape).Idx → EReal)
    (hWU : ∀ (e : Fin k) (c : Fin m) (c' : Fin m'), c'.val = c.val + off → W (ix2 e c') = U (ix2 e c))
    (r : Fin n) (c : Fin m) (c' : Fin m') (hc' : c'.val = c.val + off)
    [DecidablePred fun j => (rowDims n m' k wf').resultIdx? j idx = some (ix2 r c')]
    [DecidablePred fun j => (rowDims n m k wf).resultIdx? j idx = some (ix2 r c)] :
    ∑ j ∈ Finset.univ.filter (fun j => (rowDims n m' k wf').resultIdx? j idx = some (ix2 r c')), W j
      = ∑ j ∈ Finset.univ.filter (fun j => (rowDims n m k wf).resultIdx? j idx = some (ix2 r c)), U j := by
  symm
  refine Finset.sum_bij
    (fun j _ => (ix2 (⟨(j 0).val, idx2_lt0 j⟩ : Fin k) (⟨(j 1).val + off, by have := idx2_lt1 j; omega⟩ : Fin m') : (⟨2, ![k, m']⟩ : Shape).Idx))
    ?_ ?_ ?_ ?_
  · intro j hj
    rw [Finset.mem_filter] at hj ⊢
    have h := (row_lands_iff wf j idx _).mp hj.2
    have h2 : (j 1).val = c.val := h.2
    exact ⟨Finset.mem_univ _, (row_lands_iff wf' _ idx _).mpr ⟨h.1, show (j 1).val + off = c'.val by omega⟩⟩
  · intro j1 _ j2 _ e
    have e0 : (j1 0).val = (j2 0).val := congrArg Fin.val (congrFun e 0)
    have e1 : (j1 1).val + off = (j2 1).val + off := congrArg Fin.val (congrFun e 1)
    funext a
    match a with
    | ⟨0, _⟩ => exact Fin.ext e0
    | ⟨1, _⟩ => exact Fin.ext (Nat.add_right_cancel e1)
  · intro y hy
    rw [Finset.mem_filter] at hy
    have h := (row_lands_iff wf' y idx _).mp hy.2
    have h2 : (y 1).val = c'.val := h.2
    refine ⟨ix2 (⟨(y 0).val, idx2_lt0 y⟩ : Fin k) c, Finset.mem_filter.mpr ⟨Finset.mem_univ _, (row_lands_iff wf _ idx _).mpr ⟨h.1, rfl⟩⟩, ?_⟩
    funext a
    match a with
    | ⟨0, _⟩ => rfl
    | ⟨1, _⟩ => exact Fin.ext (show c.val + off = (y 1).val by omega)
  · intro j _
    exact (congrArg U (eq_ix2 j)).trans (hWU _ _ _ rfl).symm

/-- A column slice of the wide array at one entry. -/
theorem slice_cols (off : Nat) (h : S50000x256.Slices ![0, off] S50000x128) (X : S50000x256.Idx → EReal) (i : S50000x128.Idx)
    (hc : (i 1).val + off < 256) :
    extractStridedSlice S50000x128 ![0, off] X h i = X (ix2 (⟨(i 0).val, idx2_lt0 i⟩ : Fin 50000) (⟨(i 1).val + off, hc⟩ : Fin 256)) := by
  unfold extractStridedSlice
  refine congrArg X (funext fun a => Fin.ext ?_)
  match a with
  | ⟨0, _⟩ => show 0 + (i 0).val = (i 0).val; omega
  | ⟨1, _⟩ => show off + (i 1).val = (i 1).val + off; omega

/-- Columns `0 .. 127` of the pair are the left array's. -/
theorem pair256_left (L R : Spec.EdgeArr Ideal) (e : Fin 800000) (c : Fin 128) (c' : Fin 256) (h : c'.val = c.val + 0) :
    Spec.pair256 L R (ix2 e c') = L (ix2 e c) := by
  unfold Spec.pair256
  have hlt : ((ix2 e c' : (⟨2, ![800000, 256]⟩ : Shape).Idx) 1).val < 128 := by show c'.val < 128; omega
  rw [dif_pos hlt]
  exact congrArg L (congrArg (ix2 e) (Fin.ext (show c'.val = c.val by omega)))

/-- Columns `128 .. 255` of the pair are the right array's. -/
theorem pair256_right (L R : Spec.EdgeArr Ideal) (e : Fin 800000) (c : Fin 128) (c' : Fin 256) (h : c'.val = c.val + 128) :
    Spec.pair256 L R (ix2 e c') = R (ix2 e c) := by
  unfold Spec.pair256
  have hge : ¬ ((ix2 e c' : (⟨2, ![800000, 256]⟩ : Shape).Idx) 1).val < 128 := by show ¬ c'.val < 128; omega
  rw [dif_neg hge]
  exact congrArg R (congrArg (ix2 e) (Fin.ext (show c'.val - 128 = c.val by omega)))

theorem segSum_left (dst : Spec.EdgeIdx Ideal) (L R : Spec.EdgeArr Ideal) :
    extractStridedSlice S50000x128 ![0, 0]
        (Host.scatterAdd scatter_S50000x256_S800000x1_S800000x256_1_0_0_1
          (broadcastInDim S50000x256 ![] bcast_S_S50000x256 (constant (F := Ideal) S_ .f32 0x00000000#32))
          (broadcastInDim S800000x1 ![0] bcast_S800000_S800000x1_0 dst) (Spec.pair256 L R))
        slices_S50000x256_S50000x128_0_0
      = Spec.segSum dst L := by
  funext i
  obtain ⟨r, c, rfl⟩ : ∃ (r : Fin 50000) (c : Fin 128), i = ix2 r c := ⟨i 0, i 1, eq_ix2 i⟩
  rw [slice_cols 0 _ _ (ix2 r c) (by show c.val + 0 < 256; omega)]
  unfold Spec.segSum
  rw [scatterAdd_apply, scatterAdd_apply]
  refine congrArg₂ (· + ·) rfl ?_
  exact row_split ReferenceIdeal.scatter_S50000x128_S800000x1_S800000x128_1_0_0_1.wf
    scatter_S50000x256_S800000x1_S800000x256_1_0_0_1.wf 0 (by omega) _ (Spec.pair256 L R) L (pair256_left L R) r c ⟨c.val + 0, by omega⟩ rfl

theorem segSum_right (dst : Spec.EdgeIdx Ideal) (L R : Spec.EdgeArr Ideal) :
    extractStridedSlice S50000x128 ![0, 128]
        (Host.scatterAdd scatter_S50000x256_S800000x1_S800000x256_1_0_0_1
          (broadcastInDim S50000x256 ![] bcast_S_S50000x256 (constant (F := Ideal) S_ .f32 0x00000000#32))
          (broadcastInDim S800000x1 ![0] bcast_S800000_S800000x1_0 dst) (Spec.pair256 L R))
        slices_S50000x256_S50000x128_0_128
      = Spec.segSum dst R := by
  funext i
  obtain ⟨r, c, rfl⟩ : ∃ (r : Fin 50000) (c : Fin 128), i = ix2 r c := ⟨i 0, i 1, eq_ix2 i⟩
  rw [slice_cols 128 _ _ (ix2 r c) (by show c.val + 128 < 256; omega)]
  unfold Spec.segSum
  rw [scatterAdd_apply, scatterAdd_apply]
  refine congrArg₂ (· + ·) rfl ?_
  exact row_split ReferenceIdeal.scatter_S50000x128_S800000x1_S800000x128_1_0_0_1.wf
    scatter_S50000x256_S800000x1_S800000x256_1_0_0_1.wf 128 (by omega) _ (Spec.pair256 L R) R (pair256_right L R) r c ⟨c.val + 128, by omega⟩ rfl

end Cert.KernelIdeal.Hand

end
-- ==== Proof.KIHost.lean ====
import proofs.«411699_j69269232550020_3_alg».proof.Proof.KIRun
import proofs.«411699_j69269232550020_3_alg».proof.Proof.KIValue0
import proofs.«411699_j69269232550020_3_alg».proof.Proof.KIValue1
import proofs.«411699_j69269232550020_3_alg».proof.Proof.KIValue2
import proofs.«411699_j69269232550020_3_alg».proof.Proof.ScatterSplit
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen

variable (m : (ℓ : Loc nD τ sig) → Buf (Elt Ideal) ℓ)

/-! # The values through the run: what each buffer holds at each boundary, as a whole-array function of the launch memory -/

/-! ## The first host stretch: the four weight matrices side by side, the four biases end to end as one row -/

theorem W1_v0 (c : Dev nD) : W1 m c (Proc.devRef .tc main_v0)
    = concatenate S128x512 1 [⟨S128x128, m ((c.tc : Thread nD τ).loc main_arg4)⟩, ⟨S128x128, m ((c.tc : Thread nD τ).loc main_arg6)⟩, ⟨S128x128, m ((c.tc : Thread nD τ).loc main_arg10)⟩, ⟨S128x128, m ((c.tc : Thread nD τ).loc main_arg12)⟩] concatenates_S128x128_S128x128_S128x128_S128x128_S128x512_d1 := by
  show StableHlo.after hostOps0 _ (Proc.devRef .tc main_v0) = _
  after_results
  rfl

theorem W1_v2 (c : Dev nD) : W1 m c (Proc.devRef .tc main_v2)
    = shapeCast S1x512 (concatenate S512 0 [⟨S128, m ((c.tc : Thread nD τ).loc main_arg5)⟩, ⟨S128, m ((c.tc : Thread nD τ).loc main_arg7)⟩, ⟨S128, m ((c.tc : Thread nD τ).loc main_arg11)⟩, ⟨S128, m ((c.tc : Thread nD τ).loc main_arg13)⟩] concatenates_S128_S128_S128_S128_S512_d0) shapeCasts_S512_S1x512 := by
  show StableHlo.after hostOps0 _ (Proc.devRef .tc main_v2) = _
  after_results
  rfl

/-! Column `128 j + q` of four 128-column matrices laid side by side is column `q` of the `j`-th; entry `128 j + q` of four
    128-entry rows laid end to end (read as the one row of a one-row matrix) is entry `q` of the `j`-th. -/
section Cat
variable {α : Type} (A0 A1 A2 A3 : S128x128.Idx → α) (B0 B1 B2 B3 : S128.Idx → α)

theorem cat4_cols_0 (k q : Fin 128) :
    concatenate S128x512 1 [⟨S128x128, A0⟩, ⟨S128x128, A1⟩, ⟨S128x128, A2⟩, ⟨S128x128, A3⟩] concatenates_S128x128_S128x128_S128x128_S128x128_S128x512_d1
      (ix2 k (⟨q.val + 0, by omega⟩ : Fin 512)) = A0 (ix2 k q) := by
  refine concatenate_apply_piece (t := S128x512) (1 : Fin 2) [⟨S128x128, A0⟩, ⟨S128x128, A1⟩, ⟨S128x128, A2⟩, ⟨S128x128, A3⟩]
    concatenates_S128x128_S128x128_S128x128_S128x128_S128x512_d1 (ix2 k (⟨q.val + 0, by omega⟩ : Fin 512))
    0 (by show 0 < 4; omega) S128x128 A0 rfl rfl 0 (by simp) (ix2 k q) (fun b hb => ?_) ?_
  · match b with
    | ⟨0, _⟩ => rfl
    | ⟨1, _⟩ => exact absurd rfl hb
  · show 0 + q.val = q.val + 0
    omega
theorem cat4_row_0 (q : Fin 128) :
    shapeCast S1x512 (concatenate S512 0 [⟨S128, B0⟩, ⟨S128, B1⟩, ⟨S128, B2⟩, ⟨S128, B3⟩] concatenates_S128_S128_S128_S128_S512_d0) shapeCasts_S512_S1x512
      (ix2 (0 : Fin 1) (⟨q.val + 0, by omega⟩ : Fin 512)) = B0 (ix1 q) := by
  refine (shapeCast_addUnit_apply (n := 1) ![512] _ _ _).trans ?_
  refine concatenate_apply_piece (t := S512) (0 : Fin 1) [⟨S128, B0⟩, ⟨S128, B1⟩, ⟨S128, B2⟩, ⟨S128, B3⟩]
    concatenates_S128_S128_S128_S128_S512_d0 _
    0 (by show 0 < 4; omega) S128 B0 rfl rfl 0 (by simp) (ix1 q) (fun b hb => ?_) ?_
  · match b with
    | ⟨0, _⟩ => exact absurd rfl hb
  · show 0 + q.val = q.val + 0
    omega
theorem cat4_cols_1 (k q : Fin 128) :
    concatenate S128x512 1 [⟨S128x128, A0⟩, ⟨S128x128, A1⟩, ⟨S128x128, A2⟩, ⟨S128x128, A3⟩] concatenates_S128x128_S128x128_S128x128_S128x128_S128x512_d1
      (ix2 k (⟨q.val + 128, by omega⟩ : Fin 512)) = A1 (ix2 k q) := by
  refine concatenate_apply_piece (t := S128x512) (1 : Fin 2) [⟨S128x128, A0⟩, ⟨S128x128, A1⟩, ⟨S128x128, A2⟩, ⟨S128x128, A3⟩]
    concatenates_S128x128_S128x128_S128x128_S128x128_S128x512_d1 (ix2 k (⟨q.val + 128, by omega⟩ : Fin 512))
    1 (by show 1 < 4; omega) S128x128 A1 rfl rfl 128 (by simp) (ix2 k q) (fun b hb => ?_) ?_
  · match b with
    | ⟨0, _⟩ => rfl
    | ⟨1, _⟩ => exact absurd rfl hb
  · show 128 + q.val = q.val + 128
    omega
theorem cat4_row_1 (q : Fin 128) :
    shapeCast S1x512 (concatenate S512 0 [⟨S128, B0⟩, ⟨S128, B1⟩, ⟨S128, B2⟩, ⟨S128, B3⟩] concatenates_S128_S128_S128_S128_S512_d0) shapeCasts_S512_S1x512
      (ix2 (0 : Fin 1) (⟨q.val + 128, by omega⟩ : Fin 512)) = B1 (ix1 q) := by
  refine (shapeCast_addUnit_apply (n := 1) ![512] _ _ _).trans ?_
  refine concatenate_apply_piece (t := S512) (0 : Fin 1) [⟨S128, B0⟩, ⟨S128, B1⟩, ⟨S128, B2⟩, ⟨S128, B3⟩]
    concatenates_S128_S128_S128_S128_S512_d0 _
    1 (by show 1 < 4; omega) S128 B1 rfl rfl 128 (by simp) (ix1 q) (fun b hb => ?_) ?_
  · match b with
    | ⟨0, _⟩ => exact absurd rfl hb
  · show 128 + q.val = q.val + 128
    omega
theorem cat4_cols_2 (k q : Fin 128) :
    concatenate S128x512 1 [⟨S128x128, A0⟩, ⟨S128x128, A1⟩, ⟨S128x128, A2⟩, ⟨S128x128, A3⟩] concatenates_S128x128_S128x128_S128x128_S128x128_S128x512_d1
      (ix2 k (⟨q.val + 256, by omega⟩ : Fin 512)) = A2 (ix2 k q) := by
  refine concatenate_apply_piece (t := S128x512) (1 : Fin 2) [⟨S128x128, A0⟩, ⟨S128x128, A1⟩, ⟨S128x128, A2⟩, ⟨S128x128, A3⟩]
    concatenates_S128x128_S128x128_S128x128_S128x128_S128x512_d1 (ix2 k (⟨q.val + 256, by omega⟩ : Fin 512))
    2 (by show 2 < 4; omega) S128x128 A2 rfl rfl 256 (by simp) (ix2 k q) (fun b hb => ?_) ?_
  · match b with
    | ⟨0, _⟩ => rfl
    | ⟨1, _⟩ => exact absurd rfl hb
  · show 256 + q.val = q.val + 256
    omega
theorem cat4_row_2 (q : Fin 128) :
    shapeCast S1x512 (concatenate S512 0 [⟨S128, B0⟩, ⟨S128, B1⟩, ⟨S128, B2⟩, ⟨S128, B3⟩] concatenates_S128_S128_S128_S128_S512_d0) shapeCasts_S512_S1x512
      (ix2 (0 : Fin 1) (⟨q.val + 256, by omega⟩ : Fin 512)) = B2 (ix1 q) := by
  refine (shapeCast_addUnit_apply (n := 1) ![512] _ _ _).trans ?_
  refine concatenate_apply_piece (t := S512) (0 : Fin 1) [⟨S128, B0⟩, ⟨S128, B1⟩, ⟨S128, B2⟩, ⟨S128, B3⟩]
    concatenates_S128_S128_S128_S128_S512_d0 _
    2 (by show 2 < 4; omega) S128 B2 rfl rfl 256 (by simp) (ix1 q) (fun b hb => ?_) ?_
  · match b with
    | ⟨0, _⟩ => exact absurd rfl hb
  · show 256 + q.val = q.val + 256
    omega
theorem cat4_cols_3 (k q : Fin 128) :
    concatenate S128x512 1 [⟨S128x128, A0⟩, ⟨S128x128, A1⟩, ⟨S128x128, A2⟩, ⟨S128x128, A3⟩] concatenates_S128x128_S128x128_S128x128_S128x128_S128x512_d1
      (ix2 k (⟨q.val + 384, by omega⟩ : Fin 512)) = A3 (ix2 k q) := by
  refine concatenate_apply_piece (t := S128x512) (1 : Fin 2) [⟨S128x128, A0⟩, ⟨S128x128, A1⟩, ⟨S128x128, A2⟩, ⟨S128x128, A3⟩]
    concatenates_S128x128_S128x128_S128x128_S128x128_S128x512_d1 (ix2 k (⟨q.val + 384, by omega⟩ : Fin 512))
    3 (by show 3 < 4; omega) S128x128 A3 rfl rfl 384 (by simp) (ix2 k q) (fun b hb => ?_) ?_
  · match b with
    | ⟨0, _⟩ => rfl
    | ⟨1, _⟩ => exact absurd rfl hb
  · show 384 + q.val = q.val + 384
    omega
theorem cat4_row_3 (q : Fin 128) :
    shapeCast S1x512 (concatenate S512 0 [⟨S128, B0⟩, ⟨S128, B1⟩, ⟨S128, B2⟩, ⟨S128, B3⟩] concatenates_S128_S128_S128_S128_S512_d0) shapeCasts_S512_S1x512
      (ix2 (0 : Fin 1) (⟨q.val + 384, by omega⟩ : Fin 512)) = B3 (ix1 q) := by
  refine (shapeCast_addUnit_apply (n := 1) ![512] _ _ _).trans ?_
  refine concatenate_apply_piece (t := S512) (0 : Fin 1) [⟨S128, B0⟩, ⟨S128, B1⟩, ⟨S128, B2⟩, ⟨S128, B3⟩]
    concatenates_S128_S128_S128_S128_S512_d0 _
    3 (by show 3 < 4; omega) S128 B3 rfl rfl 384 (by simp) (ix1 q) (fun b hb => ?_) ?_
  · match b with
    | ⟨0, _⟩ => exact absurd rfl hb
  · show 384 + q.val = q.val + 384
    omega

end Cat

/-! ## An argument's buffer at the inner boundaries: no host operation writes it and a call only reads it -/

theorem W1_arg (c : Dev nD) (r : Ref sig .tc) (h : r ∉ hostOps0_W) : W1 m c (Proc.devRef .tc r) = W0 m c (Proc.devRef .tc r) :=
  StableHlo.after_of_writes_sub hostOps0 _ hostOps0_writes h
theorem W2_arg (c : Dev nD) (r : Ref sig .tc) (h0 : r ∉ hostOps0_W) (h : ∀ w, Pipeline.arrRef spec0 w ≠ r) :
    W2 m c (Proc.devRef .tc r) = W0 m c (Proc.devRef .tc r) :=
  (W2_of_ne m c r h).trans (W1_arg m c r h0)
theorem W3_arg (c : Dev nD) (r : Ref sig .tc) (h0 : r ∉ hostOps0_W) (h : ∀ w, Pipeline.arrRef spec0 w ≠ r) (h1 : r ∉ hostOps1_W) :
    W3 m c (Proc.devRef .tc r) = W0 m c (Proc.devRef .tc r) :=
  (StableHlo.after_of_writes_sub hostOps1 _ hostOps1_writes h1).trans (W2_arg m c r h0 h)

/-! ## Call 0: the four projections -/

theorem V1_arg0 (c : Dev nD) : V1 m c main_arg0 = (m ((c.tc : Thread nD τ).loc main_arg0)) := W1_arg m c main_arg0 (by decide)

theorem W2_v3_0 (c : Dev nD) : W2 m c (Proc.devRef .tc main_v3_0) = Spec.projN (m ((c.tc : Thread nD τ).loc main_arg0)) (m ((c.tc : Thread nD τ).loc main_arg4)) (m ((c.tc : Thread nD τ).loc main_arg5)) := by
  refine (W2_arr m c 3).trans ?_
  rw [final0_3 (V1 m) c (m ((c.tc : Thread nD τ).loc main_arg4)) (m ((c.tc : Thread nD τ).loc main_arg5)) (fun k q => ?_) (fun q => ?_), V1_arg0]
  · show (W1 m c (Proc.devRef .tc main_v0) : (⟨S128x512, .f32⟩ : BufTy).Contents (Elt Ideal)) _ = _
    rw [W1_v0]; exact cat4_cols_0 _ _ _ _ k q
  · show (W1 m c (Proc.devRef .tc main_v2) : (⟨S1x512, .f32⟩ : BufTy).Contents (Elt Ideal)) _ = _
    rw [W1_v2]; exact cat4_row_0 _ _ _ _ q
theorem W2_v3_1 (c : Dev nD) : W2 m c (Proc.devRef .tc main_v3_1) = Spec.projN (m ((c.tc : Thread nD τ).loc main_arg0)) (m ((c.tc : Thread nD τ).loc main_arg6)) (m ((c.tc : Thread nD τ).loc main_arg7)) := by
  refine (W2_arr m c 4).trans ?_
  rw [final0_4 (V1 m) c (m ((c.tc : Thread nD τ).loc main_arg6)) (m ((c.tc : Thread nD τ).loc main_arg7)) (fun k q => ?_) (fun q => ?_), V1_arg0]
  · show (W1 m c (Proc.devRef .tc main_v0) : (⟨S128x512, .f32⟩ : BufTy).Contents (Elt Ideal)) _ = _
    rw [W1_v0]; exact cat4_cols_1 _ _ _ _ k q
  · show (W1 m c (Proc.devRef .tc main_v2) : (⟨S1x512, .f32⟩ : BufTy).Contents (Elt Ideal)) _ = _
    rw [W1_v2]; exact cat4_row_1 _ _ _ _ q
theorem W2_v3_2 (c : Dev nD) : W2 m c (Proc.devRef .tc main_v3_2) = Spec.projN (m ((c.tc : Thread nD τ).loc main_arg0)) (m ((c.tc : Thread nD τ).loc main_arg10)) (m ((c.tc : Thread nD τ).loc main_arg11)) := by
  refine (W2_arr m c 5).trans ?_
  rw [final0_5 (V1 m) c (m ((c.tc : Thread nD τ).loc main_arg10)) (m ((c.tc : Thread nD τ).loc main_arg11)) (fun k q => ?_) (fun q => ?_), V1_arg0]
  · show (W1 m c (Proc.devRef .tc main_v0) : (⟨S128x512, .f32⟩ : BufTy).Contents (Elt Ideal)) _ = _
    rw [W1_v0]; exact cat4_cols_2 _ _ _ _ k q
  · show (W1 m c (Proc.devRef .tc main_v2) : (⟨S1x512, .f32⟩ : BufTy).Contents (Elt Ideal)) _ = _
    rw [W1_v2]; exact cat4_row_2 _ _ _ _ q
theorem W2_v3_3 (c : Dev nD) : W2 m c (Proc.devRef .tc main_v3_3) = Spec.projN (m ((c.tc : Thread nD τ).loc main_arg0)) (m ((c.tc : Thread nD τ).loc main_arg12)) (m ((c.tc : Thread nD τ).loc main_arg13)) := by
  refine (W2_arr m c 6).trans ?_
  rw [final0_6 (V1 m) c (m ((c.tc : Thread nD τ).loc main_arg12)) (m ((c.tc : Thread nD τ).loc main_arg13)) (fun k q => ?_) (fun q => ?_), V1_arg0]
  · show (W1 m c (Proc.devRef .tc main_v0) : (⟨S128x512, .f32⟩ : BufTy).Contents (Elt Ideal)) _ = _
    rw [W1_v0]; exact cat4_cols_3 _ _ _ _ k q
  · show (W1 m c (Proc.devRef .tc main_v2) : (⟨S1x512, .f32⟩ : BufTy).Contents (Elt Ideal)) _ = _
    rw [W1_v2]; exact cat4_row_3 _ _ _ _ q

/-! ## The second host stretch: the bias as a row, the three gathers along the edges' end points -/

theorem W3_v4 (c : Dev nD) : W3 m c (Proc.devRef .tc main_v4) = shapeCast S1x128 (m ((c.tc : Thread nD τ).loc main_arg9)) shapeCasts_S128_S1x128 := by
  have e : W2 m c (Proc.devRef .tc main_arg9) = (m ((c.tc : Thread nD τ).loc main_arg9)) := W2_arg m c main_arg9 (by decide) (by decide)
  rw [← e]
  show StableHlo.after hostOps1 _ (Proc.devRef .tc main_v4) = _
  after_results
  rfl

theorem W3_v11 (c : Dev nD) : W3 m c (Proc.devRef .tc main_v11) = Spec.take (Spec.projN (m ((c.tc : Thread nD τ).loc main_arg0)) (m ((c.tc : Thread nD τ).loc main_arg10)) (m ((c.tc : Thread nD τ).loc main_arg11))) (m ((c.tc : Thread nD τ).loc main_arg2)) := by
  have e : W2 m c (Proc.devRef .tc main_arg2) = (m ((c.tc : Thread nD τ).loc main_arg2)) := W2_arg m c main_arg2 (by decide) (by decide)
  rw [← e, ← W2_v3_2 m c]
  show StableHlo.after hostOps1 _ (Proc.devRef .tc main_v11) = _
  after_results
  rfl
theorem W3_v18 (c : Dev nD) : W3 m c (Proc.devRef .tc main_v18) = Spec.take (Spec.projN (m ((c.tc : Thread nD τ).loc main_arg0)) (m ((c.tc : Thread nD τ).loc main_arg12)) (m ((c.tc : Thread nD τ).loc main_arg13))) (m ((c.tc : Thread nD τ).loc main_arg3)) := by
  have e : W2 m c (Proc.devRef .tc main_arg3) = (m ((c.tc : Thread nD τ).loc main_arg3)) := W2_arg m c main_arg3 (by decide) (by decide)
  rw [← e, ← W2_v3_3 m c]
  show StableHlo.after hostOps1 _ (Proc.devRef .tc main_v18) = _
  after_results
  rfl
theorem W3_v25 (c : Dev nD) : W3 m c (Proc.devRef .tc main_v25) = Spec.take (Spec.projN (m ((c.tc : Thread nD τ).loc main_arg0)) (m ((c.tc : Thread nD τ).loc main_arg6)) (m ((c.tc : Thread nD τ).loc main_arg7))) (m ((c.tc : Thread nD τ).loc main_arg2)) := by
  have e : W2 m c (Proc.devRef .tc main_arg2) = (m ((c.tc : Thread nD τ).loc main_arg2)) := W2_arg m c main_arg2 (by decide) (by decide)
  rw [← e, ← W2_v3_1 m c]
  show StableHlo.after hostOps1 _ (Proc.devRef .tc main_v25) = _
  after_results
  rfl

/-! ## Call 1: the new edge features and the 256-wide pair -/

theorem V3_bias (c : Dev nD) (q : Fin 128) :
    (V3 m c main_v4 : (⟨S1x128, .f32⟩ : BufTy).Contents (Elt Ideal)) (ix2 (0 : Fin 1) q) = ((m ((c.tc : Thread nD τ).loc main_arg9)) : Spec.Bias Ideal) (ix1 q) := by
  show (W3 m c (Proc.devRef .tc main_v4) : (⟨S1x128, .f32⟩ : BufTy).Contents (Elt Ideal)) _ = _
  rw [W3_v4]
  refine (shapeCast_addUnit_apply (n := 1) ![128] _ _ _).trans ?_
  exact congrArg _ (funext fun a => by match a with | ⟨0, _⟩ => rfl)

theorem V3_arg1 (c : Dev nD) : V3 m c main_arg1 = (m ((c.tc : Thread nD τ).loc main_arg1)) := W3_arg m c main_arg1 (by decide) (by decide) (by decide)
theorem V3_arg8 (c : Dev nD) : V3 m c main_arg8 = (m ((c.tc : Thread nD τ).loc main_arg8)) := W3_arg m c main_arg8 (by decide) (by decide) (by decide)

theorem W4_v26_0 (c : Dev nD) : W4 m c (Proc.devRef .tc main_v26_0)
    = Spec.layerEdge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W4_arr m c 6).trans ?_
  rw [final1_6 (V3 m) c (m ((c.tc : Thread nD τ).loc main_arg9)) (V3_bias m c), V3_arg1, V3_arg8,
    show V3 m c main_v11 = _ from W3_v11 m c, show V3 m c main_v18 = _ from W3_v18 m c]
  rfl

theorem W4_v26_1 (c : Dev nD) : W4 m c (Proc.devRef .tc main_v26_1)
    = Spec.pair256 (mulf (Spec.sigm (Spec.zOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))) (Spec.take (Spec.projN (m ((c.tc : Thread nD τ).loc main_arg0)) (m ((c.tc : Thread nD τ).loc main_arg6)) (m ((c.tc : Thread nD τ).loc main_arg7))) (m ((c.tc : Thread nD τ).loc main_arg2)))) (Spec.sigm (Spec.zOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))) := by
  refine (W4_arr m c 7).trans ?_
  rw [final1_7 (V3 m) c (m ((c.tc : Thread nD τ).loc main_arg9)) (V3_bias m c), V3_arg1, V3_arg8,
    show V3 m c main_v11 = _ from W3_v11 m c, show V3 m c main_v18 = _ from W3_v18 m c, show V3 m c main_v25 = _ from W3_v25 m c]
  rfl

/-! ## The third host stretch: one sum over arriving edges of the pair, cut into its halves -/

theorem W4_arg3 (c : Dev nD) : W4 m c (Proc.devRef .tc main_arg3) = (m ((c.tc : Thread nD τ).loc main_arg3)) :=
  (W4_of_ne m c main_arg3 (by decide)).trans (W3_arg m c main_arg3 (by decide) (by decide) (by decide))

theorem W5_v30 (c : Dev nD) : W5 m c (Proc.devRef .tc main_v30) = Spec.segSum (m ((c.tc : Thread nD τ).loc main_arg3)) (mulf (Spec.sigm (Spec.zOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))) (Spec.take (Spec.projN (m ((c.tc : Thread nD τ).loc main_arg0)) (m ((c.tc : Thread nD τ).loc main_arg6)) (m ((c.tc : Thread nD τ).loc main_arg7))) (m ((c.tc : Thread nD τ).loc main_arg2)))) := by
  rw [← segSum_left (m ((c.tc : Thread nD τ).loc main_arg3)) (mulf (Spec.sigm (Spec.zOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))) (Spec.take (Spec.projN (m ((c.tc : Thread nD τ).loc main_arg0)) (m ((c.tc : Thread nD τ).loc main_arg6)) (m ((c.tc : Thread nD τ).loc main_arg7))) (m ((c.tc : Thread nD τ).loc main_arg2)))) (Spec.sigm (Spec.zOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))), ← W4_v26_1 m c, ← W4_arg3 m c]
  show StableHlo.after hostOps2 _ (Proc.devRef .tc main_v30) = _
  after_results
theorem W5_v31 (c : Dev nD) : W5 m c (Proc.devRef .tc main_v31) = Spec.segSum (m ((c.tc : Thread nD τ).loc main_arg3)) (Spec.sigm (Spec.zOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))) := by
  rw [← segSum_right (m ((c.tc : Thread nD τ).loc main_arg3)) (mulf (Spec.sigm (Spec.zOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))) (Spec.take (Spec.projN (m ((c.tc : Thread nD τ).loc main_arg0)) (m ((c.tc : Thread nD τ).loc main_arg6)) (m ((c.tc : Thread nD τ).loc main_arg7))) (m ((c.tc : Thread nD τ).loc main_arg2)))) (Spec.sigm (Spec.zOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))), ← W4_v26_1 m c, ← W4_arg3 m c]
  show StableHlo.after hostOps2 _ (Proc.devRef .tc main_v31) = _
  after_results

/-! ## Call 2 and the results -/

theorem V5_arg0 (c : Dev nD) : V5 m c main_arg0 = (m ((c.tc : Thread nD τ).loc main_arg0)) :=
  (StableHlo.after_of_writes_sub hostOps2 _ hostOps2_writes (by decide)).trans
    ((W4_of_ne m c main_arg0 (by decide)).trans
      ((StableHlo.after_of_writes_sub hostOps1 _ hostOps1_writes (by decide)).trans
        ((W2_arr m c 0).trans ((((dat0 (V1 m) c).arrAt_in 0 rfl _).trans (A_eq0 (V1 m) c 0)).trans (V1_arg0 m c)))))
theorem V5_v3_0 (c : Dev nD) : V5 m c main_v3_0 = Spec.projN (m ((c.tc : Thread nD τ).loc main_arg0)) (m ((c.tc : Thread nD τ).loc main_arg4)) (m ((c.tc : Thread nD τ).loc main_arg5)) :=
  (StableHlo.after_of_writes_sub hostOps2 _ hostOps2_writes (by decide)).trans
    ((W4_of_ne m c main_v3_0 (by decide)).trans
      ((StableHlo.after_of_writes_sub hostOps1 _ hostOps1_writes (by decide)).trans (W2_v3_0 m c)))

/-- The node result: what the last call leaves in its result array. -/
theorem W6_v32 (c : Dev nD) : W6 m c (Proc.devRef .tc main_v32)
    = Spec.layerNode (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W6_arr m c 4).trans ?_
  rw [final2_4 (V5 m) c, V5_arg0, V5_v3_0, show V5 m c main_v30 = _ from W5_v30 m c, show V5 m c main_v31 = _ from W5_v31 m c]
  rfl

/-- The edge result: call 1's first result, untouched afterwards. -/
theorem W6_v26_0 (c : Dev nD) : W6 m c (Proc.devRef .tc main_v26_0)
    = Spec.layerEdge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  (W6_of_ne m c main_v26_0 (by decide)).trans
    ((StableHlo.after_of_writes_sub hostOps2 _ hostOps2_writes (by decide)).trans (W4_v26_0 m c))

end Cert.KernelIdeal.Hand

end
-- ==== Proof.lean ====
/-
  One gated graph-convolution layer, 50000 nodes and 800000 edges of width 128: the kernel's program (three pallas_calls
  among host operations) against the plain reference, over the extended reals.

  Both programs compute, from the node features `h`, the edge features `e`, the edges' end points `src`, `dst` and five
  weight/bias pairs: the projections `h·W + b` for A, B, D, E and `e·W_C + b_C`; the gate's argument
  `z = e·W_C + b_C + (h·W_D + b_D)[src] + (h·W_E + b_E)[dst]`; the gate `σ = 1 / (1 + exp (−z))`; the sums over the edges
  arriving at each node of `σ · (h·W_B + b_B)[src]` and of `σ`; and the results `h + max (h·W_A + b_A + num / (den + ε)) 0`
  and `e + max z 0` (Proof/Spec.lean writes these as whole-array terms, `Spec.layerNode` and `Spec.layerEdge`).
  The kernel's program differs only in arrangement: it multiplies `h` once by the four node weight matrices laid side by
  side and cuts the product into its four column blocks (a column block of a product is the product with that block of
  columns), its matrix products round their operands to a shorter format first (the identity over the reals), it spells
  the gate as one operation (by definition the same function), and it sums the two edge quantities in ONE scatter-sum of
  their side-by-side pair and cuts the halves afterwards (column `c` of the wide sum collects exactly column `c` of the
  left array, column `128 + c` exactly column `c` of the right one). No law that fails at the infinities is used, so the
  precondition is never opened.

  The frames: each call's body runs on its staging buffers (Proof/KRegion*.lean, Proof/KIRegion*.lean), the calls and the
  host stretches between them are chained from the launch to the return with every unscoped buffer's contents named
  at each boundary (Proof/KRun.lean, Proof/KIRun.lean); the arguments walk back through that chain to the launch memory,
  and the two results are read off it as the layer's terms (Proof/KIValue*.lean, Proof/ScatterSplit.lean, Proof/KIHost.lean).
  The reference's run is the generated one (Proof/Gen/ReferenceIdeal/Run.lean), whose result terms are the layer's terms
  as they stand.
-/
import proofs.«411699_j69269232550020_3_alg».proof.Defs
import proofs.«411699_j69269232550020_3_alg».proof.Proof.Gen.Kernel
import proofs.«411699_j69269232550020_3_alg».proof.Proof.Gen.KernelIdeal
import proofs.«411699_j69269232550020_3_alg».proof.Proof.Gen.ReferenceIdeal
import proofs.«411699_j69269232550020_3_alg».proof.Proof.Gen.Pre_finite_inputs
import proofs.«411699_j69269232550020_3_alg».proof.Proof.Gen.ReferenceIdeal.Run
import proofs.«411699_j69269232550020_3_alg».proof.Proof.KRun
import proofs.«411699_j69269232550020_3_alg».proof.Proof.KIRun
import proofs.«411699_j69269232550020_3_alg».proof.Proof.KIHost
import Idealize.ShloMosaic.Adequacy
import Idealize.ShloMosaic.Init

set_option maxRecDepth 16384

noncomputable section

namespace Cert.Proof

open Idealize.ShloMosaic Idealize.ShloMosaic.TcCoe Idealize.SL.Sem

/-- The kernel's program as printed: it runs to the end, faults nowhere, and leaves its arguments as launched. -/
theorem frame_k : Cert.frame_Kernel := fun m ρ _ => Cert.Kernel.Hand.frame m ρ

/-- The same of its reading over the extended reals. -/
theorem frame_ki : Cert.frame_KernelIdeal := fun m ρ _ => Cert.KernelIdeal.Hand.frame m ρ

/-- The reference: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's node result, as its run states it, is the layer's node term of the arguments. -/
theorem ref_node (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v61 (F := Ideal) m' c
      = Cert.Spec.layerNode (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) := rfl

/-- Over the extended reals both programs end with the layer's two terms of the (agreeing) arguments. -/
theorem algebraic : Cert.algebraic_KernelIdeal_ReferenceIdeal := by
  intro m ρ m' ρ' _ hagree
  refine ⟨fun c => Cert.Spec.layerNode (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Spec.layerEdge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c =>
      ⟨(h c _ (Cert.KernelIdeal.Hand.mem_uc Cert.KernelIdeal.main_v32 (by decide))).trans (Cert.KernelIdeal.Hand.W6_v32 m c),
       (h c _ (Cert.KernelIdeal.Hand.mem_uc Cert.KernelIdeal.main_v26_0 (by decide))).trans (Cert.KernelIdeal.Hand.W6_v26_0 m c),
       (h c _ (Cert.KernelIdeal.Hand.mem_uc Cert.KernelIdeal.main_arg0 (by decide))).trans (Cert.KernelIdeal.Hand.W6_main_arg0 m c),
       (h c _ (Cert.KernelIdeal.Hand.mem_uc Cert.KernelIdeal.main_arg1 (by decide))).trans (Cert.KernelIdeal.Hand.W6_main_arg1 m c),
       (h c _ (Cert.KernelIdeal.Hand.mem_uc Cert.KernelIdeal.main_arg2 (by decide))).trans (Cert.KernelIdeal.Hand.W6_main_arg2 m c),
       (h c _ (Cert.KernelIdeal.Hand.mem_uc Cert.KernelIdeal.main_arg3 (by decide))).trans (Cert.KernelIdeal.Hand.W6_main_arg3 m c),
       (h c _ (Cert.KernelIdeal.Hand.mem_uc Cert.KernelIdeal.main_arg4 (by decide))).trans (Cert.KernelIdeal.Hand.W6_main_arg4 m c),
       (h c _ (Cert.KernelIdeal.Hand.mem_uc Cert.KernelIdeal.main_arg5 (by decide))).trans (Cert.KernelIdeal.Hand.W6_main_arg5 m c),
       (h c _ (Cert.KernelIdeal.Hand.mem_uc Cert.KernelIdeal.main_arg6 (by decide))).trans (Cert.KernelIdeal.Hand.W6_main_arg6 m c),
       (h c _ (Cert.KernelIdeal.Hand.mem_uc Cert.KernelIdeal.main_arg7 (by decide))).trans (Cert.KernelIdeal.Hand.W6_main_arg7 m c),
       (h c _ (Cert.KernelIdeal.Hand.mem_uc Cert.KernelIdeal.main_arg8 (by decide))).trans (Cert.KernelIdeal.Hand.W6_main_arg8 m c),
       (h c _ (Cert.KernelIdeal.Hand.mem_uc Cert.KernelIdeal.main_arg9 (by decide))).trans (Cert.KernelIdeal.Hand.W6_main_arg9 m c),
       (h c _ (Cert.KernelIdeal.Hand.mem_uc Cert.KernelIdeal.main_arg10 (by decide))).trans (Cert.KernelIdeal.Hand.W6_main_arg10 m c),
       (h c _ (Cert.KernelIdeal.Hand.mem_uc Cert.KernelIdeal.main_arg11 (by decide))).trans (Cert.KernelIdeal.Hand.W6_main_arg11 m c),
       (h c _ (Cert.KernelIdeal.Hand.mem_uc Cert.KernelIdeal.main_arg12 (by decide))).trans (Cert.KernelIdeal.Hand.W6_main_arg12 m c),
       (h c _ (Cert.KernelIdeal.Hand.mem_uc Cert.KernelIdeal.main_arg13 (by decide))).trans (Cert.KernelIdeal.Hand.W6_main_arg13 m c)⟩)
      (Cert.KernelIdeal.Hand.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [ref_node m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    · show Cert.Spec.layerEdge (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
      rw [(hagree c).1, (hagree c).2.1, (hagree c).2.2.1, (hagree c).2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
